-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S5120x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S200000 : Shape := ⟨1, ![200000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel

variable [Facts]

def fn {F : FTy → Type} [FloatOps F] (main_arg0 : FVec F S200000x256 .f32) (main_arg1 : IVec S200000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  main_v3
-- ==== Kernel.lean ====
abbrev S200000x256 : Shape := ⟨2, ![200000, 256]⟩
abbrev S200000 : Shape := ⟨1, ![200000]⟩
abbrev S_ : Shape := ⟨0, ![]⟩
abbrev S204800x256 : Shape := ⟨2, ![204800, 256]⟩
abbrev S204800 : Shape := ⟨1, ![204800]⟩
abbrev S40x1x5120 : Shape := ⟨3, ![40, 1, 5120]⟩
abbrev S2x64x256 : Shape := ⟨3, ![2, 64, 256]⟩
abbrev S2x64x3 : Shape := ⟨3, ![2, 64, 3]⟩
abbrev S5120x256 : Shape := ⟨2, ![5120, 256]⟩
abbrev S1x1x5120 : Shape := ⟨3, ![1, 1, 5120]⟩
abbrev S1x64x256 : Shape := ⟨3, ![1, 64, 256]⟩
abbrev S1x64x3 : Shape := ⟨3, ![1, 64, 3]⟩
abbrev S64x256 : Shape := ⟨2, ![64, 256]⟩
abbrev S64x3 : Shape := ⟨2, ![64, 3]⟩
abbrev S1x5120 : Shape := ⟨2, ![1, 5120]⟩
abbrev S64x5120 : Shape := ⟨2, ![64, 5120]⟩
abbrev S5120 : Shape := ⟨1, ![5120]⟩
abbrev S5120x1 : Shape := ⟨2, ![5120, 1]⟩
abbrev S5120x3 : Shape := ⟨2, ![5120, 3]⟩
abbrev S64x1 : Shape := ⟨2, ![64, 1]⟩
abbrev S64 : Shape := ⟨1, ![64]⟩

abbrev nBuf : Space → Nat
  | .hbm => 37
  | .vmem => 8
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S_, .i32⟩
  | .hbm, ⟨3, _⟩ => ⟨S_, .f32⟩
  | .hbm, ⟨4, _⟩ => ⟨S204800x256, .f32⟩
  | .hbm, ⟨5, _⟩ => ⟨S_, .i32⟩
  | .hbm, ⟨6, _⟩ => ⟨S_, .i32⟩
  | .hbm, ⟨7, _⟩ => ⟨S204800, .i32⟩
  | .hbm, ⟨8, _⟩ => ⟨S40x1x5120, .i32⟩
  | .hbm, ⟨9, _⟩ => ⟨S2x64x256, .f32⟩
  | .hbm, ⟨10, _⟩ => ⟨S2x64x3, .f32⟩
  | .hbm, ⟨11, _⟩ => ⟨S_, .f32⟩
  | .hbm, ⟨12, _⟩ => ⟨S64x256, .f32⟩
  | .hbm, ⟨13, _⟩ => ⟨S_, .f32⟩
  | .hbm, ⟨14, _⟩ => ⟨S64x3, .f32⟩
  | .hbm, ⟨15, _⟩ => ⟨S64x1, .f32⟩
  | .hbm, ⟨16, _⟩ => ⟨S64x1, .f32⟩
  | .hbm, ⟨17, _⟩ => ⟨S64x1, .f32⟩
  | .hbm, ⟨18, _⟩ => ⟨S64x1, .f32⟩
  | .hbm, ⟨19, _⟩ => ⟨S_, .f32⟩
  | .hbm, ⟨20, _⟩ => ⟨S64x1, .f32⟩
  | .hbm, ⟨21, _⟩ => ⟨S64x1, .f32⟩
  | .hbm, ⟨22, _⟩ => ⟨S64x256, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1, .f32⟩
  | .hbm, ⟨27, _⟩ => ⟨S64x1, .f32⟩
  | .hbm, ⟨28, _⟩ => ⟨S_, .f32⟩
  | .hbm, ⟨29, _⟩ => ⟨S64x1, .f32⟩
  | .hbm, ⟨30, _⟩ => ⟨S64x1, .i1⟩
  | .hbm, ⟨31, _⟩ => ⟨S_, .f32⟩
  | .hbm, ⟨32, _⟩ => ⟨S_, .f32⟩
  | .hbm, ⟨33, _⟩ => ⟨S64x1, .f32⟩
  | .hbm, ⟨34, _⟩ => ⟨S64x1, .f32⟩
  | .hbm, ⟨35, _⟩ => ⟨S_, .f32⟩
  | .hbm, ⟨36, _⟩ => ⟨S_, .f32⟩
  | .local _ .vmem, ⟨0, _⟩ => ⟨S5120x256, .f32⟩
  | .local _ .vmem, ⟨1, _⟩ => ⟨S5120x256, .f32⟩
  | .local _ .vmem, ⟨2, _⟩ => ⟨S1x1x5120, .i32⟩
  | .local _ .vmem, ⟨3, _⟩ => ⟨S1x1x5120, .i32⟩
  | .local _ .vmem, ⟨4, _⟩ => ⟨S1x64x256, .f32⟩
  | .local _ .vmem, ⟨5, _⟩ => ⟨S1x64x256, .f32⟩
  | .local _ .vmem, ⟨6, _⟩ => ⟨S1x64x3, .f32⟩
  | .local _ .vmem, ⟨7, _⟩ => ⟨S1x64x3, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_cst : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call2_v0 : Ref sig .tc := ⟨.hbm, 32, rfl⟩
abbrev main_call2_v1 : Ref sig .tc := ⟨.hbm, 33, rfl⟩
abbrev main_v19 : Ref sig .tc := ⟨.hbm, 34, rfl⟩
abbrev main_cst_6 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 20], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5120x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5120 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S200000x256_S204800x256_048000_000 : S200000x256.Pads (![0, 0] : Fin 2 → Nat) ![4800, 0] ![0, 0] S204800x256
  h_S_ : 0 < S_.numel
  pads_S200000_S204800_048000 : S200000.Pads (![0] : Fin 1 → Nat) ![4800] ![0] S204800
  shapeCasts_S204800_S40x1x5120 : S204800.ShapeCasts S40x1x5120
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x64x3_S1x64x3_0_0_0 : ∀ a, (![0, 0, 0] : Fin 3 → Nat) a + S1x64x3.size a ≤ S1x64x3.size a
  h_S1x64x3 : 0 < S1x64x3.numel
  shapeCasts_S1x64x3_S64x3 : S1x64x3.ShapeCasts S64x3
  shapeCasts_S64x3_S1x64x3 : S64x3.ShapeCasts S1x64x3
  inb_S5120x256_S5120x256_0_0 : ∀ a, (![0, 0] : Fin 2 → Nat) a + S5120x256.size a ≤ S5120x256.size a
  h_S5120x256 : 0 < S5120x256.numel
  shapeCasts_S5120x256_S5120x256 : S5120x256.ShapeCasts S5120x256
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S1x5120 : S1x1x5120.ShapeCasts S1x5120
  iota_S64x5120_d0_w32 : S64x5120.Iotas .tc 32 [0]
  broadcasts_S1x5120_S64x5120 : S1x5120.Broadcasts S64x5120
  natLt_1_32 : 1 < 32
  bitsLt_bf16_f32 : FTy.bits .bf16 < FTy.bits .f32
  reduces_S5120x256_S5120 : S5120x256.Reduces [1] S5120
  shapeCasts_S5120_S5120x1 : S5120.ShapeCasts S5120x1
  concatenates_S5120x1_S5120x1_S5120x1_S5120x3_d1 : Shape.Concatenates [S5120x1, S5120x1, S5120x1] S5120x3 1
  reducesTo_S2x64x256_S64x256_d0 : S2x64x256.ReducesTo [0] S64x256
  reducesTo_S2x64x3_S64x3_d0 : S2x64x3.ReducesTo [0] S64x3
  slices_S64x3_S64x1_0_0 : S64x3.Slices ![0, 0] S64x1
  slices_S64x3_S64x1_0_1 : S64x3.Slices ![0, 1] S64x1
  slices_S64x3_S64x1_0_2 : S64x3.Slices ![0, 2] S64x1
  bcast_S_S64x1 : S_.BroadcastsInDim S64x1 (![] : Fin 0 → Fin S64x1.rank)
  reducesTo_S64x256_S64_d1 : S64x256.ReducesTo [1] S64
  bcast_S64_S64x1_0 : S64.BroadcastsInDim S64x1 (![0] : Fin 1 → Fin S64x1.rank)
  reducesTo_S64x1_S_d0_1 : S64x1.ReducesTo [0, 1] S_
  dot_S64x5120_S5120x256_S64x256_1_0_0_1_n_n_wf : DotDims.WF S64x5120 S5120x256 S64x256 [1] [0] [0] [1] [] []
  dot_S64x5120_S5120x3_S64x3_1_0_0_1_n_n_wf : DotDims.WF S64x5120 S5120x3 S64x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x256.size a ≤ S204800x256.size a
  hwx0_0 : ∀ i : grid0.Coords, EltTy.bits .f32 = 32 ∨ (Rect.block (s := S204800x256) S5120x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5120.size a ≤ S40x1x5120.size a
  hwx0_1 : ∀ i : grid0.Coords, EltTy.bits .i32 = 32 ∨ (Rect.block (s := S40x1x5120) S1x1x5120.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .f32 = 32 ∨ (Rect.block (s := S2x64x256) S1x64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x3.size a ≤ S2x64x3.size a
  hwx0_3 : ∀ i : grid0.Coords, EltTy.bits .f32 = 32 ∨ (Rect.block (s := S2x64x3) S1x64x3.size (cc0_transform_3 i) (hinb0_3 i)).WholeWords (EltTy.packing .f32)

variable [Facts₀]

def dot_S64x5120_S5120x256_S64x256_1_0_0_1_n_n : DotDims S64x5120 S5120x256 S64x256 where
  lhsContracting := [1]
  rhsContracting := [0]
  lhsNonContracting := [0]
  rhsNonContracting := [1]
  lhsBatch := []
  rhsBatch := []
  wf := dot_S64x5120_S5120x256_S64x256_1_0_0_1_n_n_wf
def dot_S64x5120_S5120x3_S64x3_1_0_0_1_n_n : DotDims S64x5120 S5120x3 S64x3 where
  lhsContracting := [1]
  rhsContracting := [0]
  lhsNonContracting := [0]
  rhsNonContracting := [1]
  lhsBatch := []
  rhsBatch := []
  wf := dot_S64x5120_S5120x3_S64x3_1_0_0_1_n_n_wf

abbrev win0_0 : Pipeline.Window sig grid0 :=
  Pipeline.Window.ofSpec (Memref.whole main_v0) S5120x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x5120.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x64x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x64x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S200000x256 : Shape := ⟨2, ![200000, 256]⟩
abbrev S200000 : Shape := ⟨1, ![200000]⟩
abbrev S_ : Shape := ⟨0, ![]⟩
abbrev S64 : Shape := ⟨1, ![64]⟩
abbrev S200000x1 : Shape := ⟨2, ![200000, 1]⟩
abbrev S64x256 : Shape := ⟨2, ![64, 256]⟩

abbrev nBuf : Space → Nat
  | .hbm => 36
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S200000, .i32⟩
  | .hbm, ⟨2, _⟩ => ⟨S_, .f32⟩
  | .hbm, ⟨3, _⟩ => ⟨S200000, .f32⟩
  | .hbm, ⟨4, _⟩ => ⟨S_, .f32⟩
  | .hbm, ⟨5, _⟩ => ⟨S64, .f32⟩
  | .hbm, ⟨6, _⟩ => ⟨S200000x1, .i32⟩
  | .hbm, ⟨7, _⟩ => ⟨S64, .f32⟩
  | .hbm, ⟨8, _⟩ => ⟨S_, .f32⟩
  | .hbm, ⟨9, _⟩ => ⟨S64x256, .f32⟩
  | .hbm, ⟨10, _⟩ => ⟨S200000x1, .i32⟩
  | .hbm, ⟨11, _⟩ => ⟨S64x256, .f32⟩
  | .hbm, ⟨12, _⟩ => ⟨S200000x256, .f32⟩
  | .hbm, ⟨13, _⟩ => ⟨S_, .f32⟩
  | .hbm, ⟨14, _⟩ => ⟨S200000, .f32⟩
  | .hbm, ⟨15, _⟩ => ⟨S_, .f32⟩
  | .hbm, ⟨16, _⟩ => ⟨S64, .f32⟩
  | .hbm, ⟨17, _⟩ => ⟨S200000x1, .i32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64x256, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .i1⟩
  | .hbm, ⟨30, _⟩ => ⟨S_, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S_, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_cst_7 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S_S64 : S_.BroadcastsInDim S64 (![] : Fin 0 → Fin S64.rank)
  bcast_S200000_S200000x1_0 : S200000.BroadcastsInDim S200000x1 (![0] : Fin 1 → Fin S200000x1.rank)
  bcast_S_S64x256 : S_.BroadcastsInDim S64x256 (![] : Fin 0 → Fin S64x256.rank)
  reducesTo_S200000x256_S200000_d1 : S200000x256.ReducesTo [1] S200000
  h_S_ : 0 < S_.numel
  reducesTo_S64x256_S64_d1 : S64x256.ReducesTo [1] S64
  reducesTo_S64_S_d0 : S64.ReducesTo [0] S_
  scatter_S64_S200000x1_S200000_n_0_0_1_wf : ScatterDims.WF S64 S200000x1 S200000 [] [0] [0] 1
  scatter_S64x256_S200000x1_S200000x256_1_0_0_1_wf : ScatterDims.WF S64x256 S200000x1 S200000x256 [1] [0] [0] 1

variable [Facts₀]

def scatter_S64_S200000x1_S200000_n_0_0_1 : ScatterDims S64 S200000x1 S200000 where
  updateWindowDims := []
  insertedWindowDims := [0]
  scatterDimsToOperandDims := [0]
  indexVectorDim := 1
  wf := scatter_S64_S200000x1_S200000_n_0_0_1_wf
def scatter_S64x256_S200000x1_S200000x256_1_0_0_1 : ScatterDims S64x256 S200000x1 S200000x256 where
  updateWindowDims := [1]
  insertedWindowDims := [0]
  scatterDimsToOperandDims := [0]
  indexVectorDim := 1
  wf := scatter_S64x256_S200000x1_S200000x256_1_0_0_1_wf

class Facts : Prop extends Facts₀ where

variable [Facts]
-- ==== Proof.Spec.lean ====
/-
  The mathematics both programs are measured against.

  Inputs: `x`, 200000 rows of 256 extended reals, and `ids`, one 32-bit word per row.  Row `r` belongs to
  cluster `k < 64` when its word IS `k` (as a 32-bit word: a negative or a large word belongs to no cluster).
  Per cluster: the number of its rows `cnt`, the columnwise sum of its rows `sums`, and the sum over its rows of the
  row's sum of squares `ssq`.  The loss adds, over the clusters with more than one row,
  `ssq k - (∑ d, sums k d ^ 2) / max (cnt k) 1`.

  The kernel reaches the three quantities by a one-hot matrix product over 40 tiles of 5120 rows of the inputs
  padded to 204800 rows (zero rows, id 64, which is no cluster), two halves of 20 tiles accumulated apart and then
  added; the reference by three accumulating scatters.  Everything here is stated over literal index types.
-/
import Idealize.ShloMosaic.PureOps.Ideal
import Idealize.ShloMosaic.PureOps.Ideal.Laws
import Idealize.ShloMosaic.Lib.ValueIdx

noncomputable section

namespace Cert.Compact

open Idealize.ShloMosaic

/-- The one-hot entry of a row whose id word is `w`, in cluster `k`'s line: 1 when the word is `k`, else 0. -/
def oh (w : BitVec 32) (k : Fin 64) : EReal := if w = BitVec.ofNat 32 k.val then 1 else 0

/-- A row's sum of squares. -/
def rss (xr : Fin 256 → EReal) : EReal := ∑ d : Fin 256, xr d * xr d

/-- The three columns the kernel multiplies the one-hot matrix with besides the features: the constant 1 (for the
    count), the row's sum of squares, and that sum less itself (the low part of a two-term split, zero on reals). -/
def auxcol (xr : Fin 256 → EReal) (a : Fin 3) : EReal := (![1, rss xr, rss xr - rss xr] : Fin 3 → EReal) a

/-- One tile's contribution to cluster `k`'s feature sums: the one-hot line times the tile's rows. -/
def tile2 (xb : Fin 5120 → Fin 256 → EReal) (ib : Fin 5120 → BitVec 32) (k : Fin 64) (d : Fin 256) : EReal :=
  ∑ j : Fin 5120, oh (ib j) k * xb j d

/-- One tile's contribution to cluster `k`'s three auxiliary sums. -/
def tile3 (xb : Fin 5120 → Fin 256 → EReal) (ib : Fin 5120 → BitVec 32) (k : Fin 64) (a : Fin 3) : EReal :=
  ∑ j : Fin 5120, oh (ib j) k * auxcol (xb j) a

/-- The features padded with 4800 zero rows. -/
def xpad (x : Fin 200000 → Fin 256 → EReal) (r : Fin 204800) : Fin 256 → EReal :=
  fun d => if h : r.val < 200000 then x ⟨r.val, h⟩ d else 0

/-- The ids padded with 4800 words 64: no cluster's. -/
def idpad (ids : Fin 200000 → BitVec 32) (r : Fin 204800) : BitVec 32 :=
  if h : r.val < 200000 then ids ⟨r.val, h⟩ else 64#32

/-- Row `j` of tile `t` is row `5120 t + j` of the padded inputs. -/
def row (t : Fin 40) (j : Fin 5120) : Fin 204800 :=
  ⟨t.val * 5120 + j.val, by have := t.isLt; have := j.isLt; omega⟩

/-- Step `s` of half `c` works on tile `20 c + s`. -/
def pt (c : Fin 2) (s : Fin 20) : Fin 40 := ⟨20 * c.val + s.val, by have := c.isLt; have := s.isLt; omega⟩

/-- Tile `t` of the padded features, and of the padded ids. -/
def xtile (x : Fin 200000 → Fin 256 → EReal) (t : Fin 40) : Fin 5120 → Fin 256 → EReal := fun j => xpad x (row t j)
def itile (ids : Fin 200000 → BitVec 32) (t : Fin 40) : Fin 5120 → BitVec 32 := fun j => idpad ids (row t j)

/-- What half `c` of the kernel has accumulated after its 20 tiles. -/
def part2 (x : Fin 200000 → Fin 256 → EReal) (ids : Fin 200000 → BitVec 32) (c : Fin 2) (k : Fin 64) (d : Fin 256) : EReal :=
  ∑ s : Fin 20, tile2 (xtile x (pt c s)) (itile ids (pt c s)) k d
def part3 (x : Fin 200000 → Fin 256 → EReal) (ids : Fin 200000 → BitVec 32) (c : Fin 2) (k : Fin 64) (a : Fin 3) : EReal :=
  ∑ s : Fin 20, tile3 (xtile x (pt c s)) (itile ids (pt c s)) k a

/-- The three per-cluster quantities. -/
def cnt (ids : Fin 200000 → BitVec 32) (k : Fin 64) : EReal := ∑ r : Fin 200000, oh (ids r) k
def sums (x : Fin 200000 → Fin 256 → EReal) (ids : Fin 200000 → BitVec 32) (k : Fin 64) (d : Fin 256) : EReal :=
  ∑ r : Fin 200000, oh (ids r) k * x r d
def ssq (x : Fin 200000 → Fin 256 → EReal) (ids : Fin 200000 → BitVec 32) (k : Fin 64) : EReal :=
  ∑ r : Fin 200000, oh (ids r) k * rss (x r)

/-- The loss from the three quantities: over the clusters with more than one row, the within-cluster scatter. -/
def tail (cn : Fin 64 → EReal) (sm : Fin 64 → Fin 256 → EReal) (sq : Fin 64 → EReal) : EReal :=
  ∑ k : Fin 64, Scalar.select (Ideal.cmp .ogt (cn k) 1)
    (sq k - Ideal.div (∑ d : Fin 256, sm k d * sm k d) (max (cn k) 1)) 0

/-- The single-precision word of 1.0 is the real 1, -/
theorem one_f32 : Ideal.ofBits .f32 0x3F800000#32 = 1 := by
  simp [Ideal.ofBits, Ideal.ieee, -EReal.coe_mul]; norm_num

/-- and so is the half-width word of 1.0. -/
theorem one_bf16 : Ideal.ofBits .bf16 0x3F80#16 = 1 := by
  simp [Ideal.ofBits, Ideal.ieee, -EReal.coe_mul]; norm_num

end Cert.Compact

end
-- ==== Proof.RefValue.lean ====
import proofs.«414399_j7507602833894_3_alg».proof.Proof.RefReadP
import proofs.«414399_j7507602833894_3_alg».proof.Proof.Spec
import Idealize.ShloMosaic.Lib.ValueIdx
import Idealize.ShloMosaic.PureOps.Ideal.Laws

/-
  The reference's result is the spec's loss.

  The reference builds three per-cluster quantities by accumulating scatters: each of the 200000 rows adds 1 (for the
  count), its 256 features (for the feature sums) and its sum of squares (for the squared norms) to the cluster its
  id word names.  Over the extended reals such a scatter is exact: an operand element plus the sum of the updates
  landing on it, where an update lands on the index start + window coordinate, the start being the id word read as a
  SIGNED integer and not clamped, and is dropped when that index leaves the operand.  With 64 clusters, a row lands on
  cluster `k` exactly when its signed word equals `k`, which for `k < 64` says the word IS the 32-bit numeral `k`:
  the spec's one-hot entry.  So each scatter is `∑ r, oh (id r) k * update r`, and the short tail after the scatters
  (maximum with 1, quotient, difference, comparison, selection, final sum) is read off operation by operation.
-/

noncomputable section

namespace Cert.ReferenceIdeal.RefValue

open Idealize.ShloMosaic Idealize.ShloMosaic.ValueIdx
open Cert.ReferenceIdeal Cert.ReferenceIdeal.Gen Cert.Compact

/-- A 32-bit word read as a signed integer equals a cluster number `k < 64` exactly when the word is the
    32-bit numeral of `k`: a word whose signed value lies in `[0, 64)` has its top bit clear, so its signed and
    unsigned values coincide, and two words with one unsigned value are equal.  This is the spec's one-hot test. -/
theorem toInt_eq_iff (w : BitVec 32) (k : Fin 64) : w.toInt = (k.val : ℤ) ↔ w = BitVec.ofNat 32 k.val := by
  have hk := k.isLt
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    split <;> omega

/-- The dimension numbers of the two scatters into a vector of 64 clusters (no window axis) … -/
abbrev d1 := scatter_S64_S200000x1_S200000_n_0_0_1
/-- … and of the scatter into the 64 × 256 table (the column is a window axis). -/
abbrev d2 := scatter_S64x256_S200000x1_S200000x256_1_0_0_1

/-- In the vector scatter, the start of update row `j` on the one operand axis is the id word of row `j`, read
    signed: the index tensor has shape 200000 × 1 and the start's only component sits at `(j, 0)`. -/
theorem d1_start (j : S200000.Idx) (idx : IVec S200000x1 32) (a : Fin S64.rank) :
    d1.start j idx a = (idx (ix2 (j 0) 0)).toInt := by
  obtain rfl : a = 0 := Subsingleton.elim _ _
  unfold ScatterDims.start
  rw [dif_pos (show (0 : Fin 1) ∈ d1.scatterDimsToOperandDims from List.mem_singleton.mpr rfl)]
  congr 2
  funext b; refine Fin.ext ?_
  match b with
  | ⟨0, _⟩ => rfl
  | ⟨1, _⟩ => rfl

/-- The vector scatter has no window: the window coordinate is 0. -/
theorem d1_window (j : S200000.Idx) (a : Fin S64.rank) : d1.window j a = 0 := by
  obtain rfl : a = 0 := Subsingleton.elim _ _
  unfold ScatterDims.window
  rw [dif_neg (by decide)]

/-- Update row `j` of the vector scatter lands on cluster `k` exactly when its id word is the numeral `k`.
    The landing index is start + 0; it exists when `0 ≤ start < 64` and is then `start` itself, so it is `k` iff the
    signed word equals `k`; a word outside `[0, 64)` lands nowhere and is no numeral below 64 either. -/
theorem d1_resultIdx (j : S200000.Idx) (idx : IVec S200000x1 32) (k : Fin 64) :
    d1.resultIdx? j idx = some (ix1 k) ↔ idx (ix2 (j 0) 0) = BitVec.ofNat 32 k.val := by
  rw [← toInt_eq_iff]
  unfold ScatterDims.resultIdx?
  simp only [d1_start, d1_window]
  split_ifs with h
  · rw [Option.some_inj]
    constructor
    · intro e
      have e0 : ((idx (ix2 (j 0) 0)).toInt + ((0:Nat):ℤ)).toNat = k.val := congrArg (fun f => (f 0).val) e
      have h0 : 0 ≤ (idx (ix2 (j 0) 0)).toInt + ((0:Nat):ℤ) ∧ (idx (ix2 (j 0) 0)).toInt + ((0:Nat):ℤ) < ((64:Nat):ℤ) := h 0
      omega
    · intro e
      funext a
      obtain rfl : a = 0 := Subsingleton.elim _ _
      refine Fin.ext ?_
      show ((idx (ix2 (j 0) 0)).toInt + ((0:Nat):ℤ)).toNat = k.val
      omega
  · constructor
    · intro e; cases e
    · intro e
      exfalso; apply h
      intro a
      obtain rfl : a = 0 := Subsingleton.elim _ _
      have := k.isLt
      show 0 ≤ _ + ((0:Nat):ℤ) ∧ _ + ((0:Nat):ℤ) < ((64:Nat):ℤ)
      omega

/-- In the table scatter the start on the cluster axis is again the signed id word of the update's row, -/
theorem d2_start0 (j : S200000x256.Idx) (idx : IVec S200000x1 32) :
    d2.start j idx 0 = (idx (ix2 (j 0) 0)).toInt := by
  unfold ScatterDims.start
  rw [dif_pos (show (0 : Fin 2) ∈ d2.scatterDimsToOperandDims from List.mem_singleton.mpr rfl)]
  congr 2
  funext b; refine Fin.ext ?_
  match b with
  | ⟨0, _⟩ => rfl
  | ⟨1, _⟩ => rfl

/-- the start on the column axis is 0 (the index vector names only the cluster axis), -/
theorem d2_start1 (j : S200000x256.Idx) (idx : IVec S200000x1 32) :
    d2.start j idx 1 = 0 := by
  unfold ScatterDims.start
  rw [dif_neg (by decide)]

/-- the window coordinate on the cluster axis is 0 (that axis is inserted), -/
theorem d2_window0 (j : S200000x256.Idx) : d2.window j 0 = 0 := by
  unfold ScatterDims.window
  rw [dif_neg (by decide)]

/-- and on the column axis it is the update's own column. -/
theorem d2_window1 (j : S200000x256.Idx) : d2.window j 1 = (j 1).val := by
  unfold ScatterDims.window
  rw [dif_pos (by decide)]
  rfl

/-- Update element `(r, b)` of the table scatter lands on `(k, c)` exactly when row `r`'s id word is the numeral
    `k` and `b = c`.  The landing index is (signed word, column); the column is always inside `[0, 256)`, so the
    element is kept iff the signed word is inside `[0, 64)`, and then the two coordinates are compared one by one. -/
theorem d2_resultIdx (j : S200000x256.Idx) (idx : IVec S200000x1 32) (k : Fin 64) (c : Fin 256) :
    d2.resultIdx? j idx = some (ix2 k c) ↔ (idx (ix2 (j 0) 0) = BitVec.ofNat 32 k.val ∧ j 1 = c) := by
  rw [← toInt_eq_iff]
  have hj1 : (j 1).val < 256 := idx2_lt1 j
  have hk := k.isLt
  have hc := c.isLt
  have hall : (∀ a : Fin S64x256.rank, 0 ≤ d2.start j idx a + (d2.window j a : ℤ) ∧ d2.start j idx a + (d2.window j a : ℤ) < (S64x256.size a : ℤ)) ↔
      (0 ≤ (idx (ix2 (j 0) 0)).toInt ∧ (idx (ix2 (j 0) 0)).toInt < 64) := by
    constructor
    · intro h
      have h0 := h 0
      rw [d2_start0, d2_window0] at h0
      have : ((S64x256.size 0 : Nat) : ℤ) = 64 := rfl
      omega
    · intro h a
      match a with
      | ⟨0, _⟩ =>
        show 0 ≤ d2.start j idx 0 + (d2.window j 0 : ℤ) ∧ d2.start j idx 0 + (d2.window j 0 : ℤ) < ((64 : Nat) : ℤ)
        rw [d2_start0, d2_window0]; omega
      | ⟨1, _⟩ =>
        show 0 ≤ d2.start j idx 1 + (d2.window j 1 : ℤ) ∧ d2.start j idx 1 + (d2.window j 1 : ℤ) < ((256 : Nat) : ℤ)
        rw [d2_start1, d2_window1]; omega
  unfold ScatterDims.resultIdx?
  split_ifs with h
  · rw [Option.some_inj]
    have h' := hall.mp h
    constructor
    · intro e
      have e0 := congrArg (fun f => (f 0).val) e
      have e1 := congrArg (fun f => (f 1).val) e
      simp only [d2_start0, d2_window0, d2_start1, d2_window1] at e0 e1
      refine ⟨?_, Fin.ext ?_⟩
      · show _ = (k.val : ℤ)
        change ((idx (ix2 (j 0) 0)).toInt + ((0:Nat):ℤ)).toNat = k.val at e0
        omega
      · change ((0:ℤ) + ((j 1).val : ℤ)).toNat = c.val at e1
        omega
    · rintro ⟨e, rfl⟩
      funext a
      refine Fin.ext ?_
      match a with
      | ⟨0, _⟩ =>
        show (d2.start j idx 0 + (d2.window j 0 : ℤ)).toNat = k.val
        rw [d2_start0, d2_window0]; omega
      | ⟨1, _⟩ =>
        show (d2.start j idx 1 + (d2.window j 1 : ℤ)).toNat = (j 1).val
        rw [d2_start1, d2_window1]; omega
  · constructor
    · intro e; cases e
    · rintro ⟨e, _⟩
      exfalso; apply h
      rw [hall]
      omega

/-- A rank-1 index set is its one coordinate's range … -/
def idxEquiv1 {n : Nat} : Fin n ≃ (⟨1, ![n]⟩ : Shape).Idx where
  toFun a := ix1 a
  invFun i := i 0
  left_inv _ := rfl
  right_inv i := (eq_ix1 i).symm

/-- … so a sum over it is the sum over that coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)) f).symm

/-- THE VECTOR SCATTER AT CLUSTER `k`: the operand there plus `∑ r, oh (id r) k * upd r`.  The exact scatter sum
    ranges over the update rows landing on `k`; written as a sum over all rows of an indicator times the update,
    the indicator is, by `d1_resultIdx`, the one-hot entry (1 times the update when the word is `k`, 0 times it
    otherwise). -/
theorem scat1_apply (x : S64.Idx → EReal) (idx : IVec S200000x1 32) (upd : S200000.Idx → EReal) (k : Fin 64) :
    Ideal.hostScatterAdd d1 x idx upd (ix1 k)
      = x (ix1 k) + ∑ r : Fin 200000, oh (idx (ix2 r 0)) k * upd (ix1 r) := by
  unfold Ideal.hostScatterAdd
  refine congrArg (x (ix1 k) + ·) ?_
  rw [Finset.sum_filter, sum_idx1]
  refine Finset.sum_congr rfl fun r _ => ?_
  unfold oh
  by_cases hw : idx (ix2 r 0) = BitVec.ofNat 32 k.val
  · rw [if_pos ((d1_resultIdx (ix1 r) idx k).mpr hw), if_pos hw, one_mul]
  · rw [if_neg (fun h => hw ((d1_resultIdx (ix1 r) idx k).mp h)), if_neg hw, zero_mul]

/-- THE TABLE SCATTER AT `(k, c)`: the operand there plus `∑ r, oh (id r) k * upd (r, c)`.  The sum over all update
    elements is the double sum over rows and columns; in each row only column `c` can land on `(k, c)`, so the
    inner sum is its one term at `c`, and that term is the one-hot entry times the update as before. -/
theorem scat2_apply (x : S64x256.Idx → EReal) (idx : IVec S200000x1 32) (upd : S200000x256.Idx → EReal)
    (k : Fin 64) (c : Fin 256) :
    Ideal.hostScatterAdd d2 x idx upd (ix2 k c)
      = x (ix2 k c) + ∑ r : Fin 200000, oh (idx (ix2 r 0)) k * upd (ix2 r c) := by
  unfold Ideal.hostScatterAdd
  refine congrArg (x (ix2 k c) + ·) ?_
  rw [Finset.sum_filter, sum_idx2]
  refine Finset.sum_congr rfl fun r _ => ?_
  rw [Finset.sum_eq_single c]
  · unfold oh
    by_cases hw : idx (ix2 r 0) = BitVec.ofNat 32 k.val
    · rw [if_pos ((d2_resultIdx (ix2 r c) idx k c).mpr ⟨hw, rfl⟩), if_pos hw, one_mul]
    · rw [if_neg (fun h => hw ((d2_resultIdx (ix2 r c) idx k c).mp h).1), if_neg hw, zero_mul]
  · intro b _ hb
    rw [if_neg (fun h => hb ((d2_resultIdx (ix2 r b) idx k c).mp h).2)]
  · intro h; exact absurd (Finset.mem_univ c) h

/-- The index maps of the reference's layout steps, at indices written by their coordinates: the ids broadcast to
    a 200000 × 1 column are read at the row, and a reduction along columns reads element `(row, column)`. -/
theorem idx_v2_ix (r : Fin 200000) : ReadP.idx_main_v2 (ix2 r (0 : Fin 1)) = ix1 r := by
  funext a; match a with | ⟨0, _⟩ => rfl

theorem idx_v5_ix (r : Fin 200000) : ReadP.idx_main_v5 (ix2 r (0 : Fin 1)) = ix1 r := by
  funext a; match a with | ⟨0, _⟩ => rfl

theorem idx_v10_ix (r : Fin 200000) : ReadP.idx_main_v10 (ix2 r (0 : Fin 1)) = ix1 r := by
  funext a; match a with | ⟨0, _⟩ => rfl

theorem idx_v8_ix (r : Fin 200000) (c : Fin 256) : ReadP.idx_main_v8 (ix1 r) c = ix2 r c := by
  funext a; match a with | ⟨0, _⟩ => rfl | ⟨1, _⟩ => rfl

theorem idx_v15_ix (k : Fin 64) (c : Fin 256) : ReadP.idx_main_v15 (ix1 k) c = ix2 k c := by
  funext a; match a with | ⟨0, _⟩ => rfl | ⟨1, _⟩ => rfl

/-- The reference's counts: a scatter of ones into zeros, so cluster `k` holds `0 + ∑ r, oh (id r) k * 1`, the
    spec's `cnt`. -/
theorem v3_apply (x1 : (⟨S200000, .i32⟩ : BufTy).Contents (Elt Ideal)) (k : Fin 64) :
    ReadP.val_main_v3 (F := Ideal) x1 (ix1 k) = cnt (fun r => x1 (ix1 r)) k := by
  unfold ReadP.val_main_v3
  simp only [Host.scatterAdd, Ideal.hostScatterAdd_def]
  refine (scat1_apply _ _ _ k).trans ?_
  unfold cnt
  rw [ReadP.val_main_v1_apply, ReadP.val_main_cst_0_apply, Ideal.ofBits_def, Ideal.ofBits_zero_f32, zero_add]
  refine Finset.sum_congr rfl fun r _ => ?_
  rw [ReadP.val_main_v2_apply, idx_v2_ix, ReadP.val_main_v0_apply, ReadP.val_main_cst_apply, Ideal.ofBits_def,
    Compact.one_f32, mul_one]

/-- The reference's feature sums: a scatter of the rows into a zero table, so `(k, c)` holds
    `0 + ∑ r, oh (id r) k * x r c`, the spec's `sums`. -/
theorem v6_apply (x0 : (⟨S200000x256, .f32⟩ : BufTy).Contents (Elt Ideal))
    (x1 : (⟨S200000, .i32⟩ : BufTy).Contents (Elt Ideal)) (k : Fin 64) (c : Fin 256) :
    ReadP.val_main_v6 (F := Ideal) x0 x1 (ix2 k c)
      = sums (fun r d => x0 (ix2 r d)) (fun r => x1 (ix1 r)) k c := by
  unfold ReadP.val_main_v6
  simp only [Host.scatterAdd, Ideal.hostScatterAdd_def]
  refine (scat2_apply _ _ _ k c).trans ?_
  unfold sums
  rw [ReadP.val_main_v4_apply, ReadP.val_main_cst_1_apply, Ideal.ofBits_def, Ideal.ofBits_zero_f32, zero_add]
  refine Finset.sum_congr rfl fun r _ => ?_
  rw [ReadP.val_main_v5_apply, idx_v5_ix]

/-- A row's sum of squares as the reference computes it: zero plus the sum over the columns of the squares. -/
theorem v8_apply (x0 : (⟨S200000x256, .f32⟩ : BufTy).Contents (Elt Ideal)) (r : Fin 200000) :
    ReadP.val_main_v8 (F := Ideal) x0 (ix1 r) = rss (fun d => x0 (ix2 r d)) := by
  rw [ReadP.val_main_v8_apply, ReadP.val_main_cst_2_apply, Ideal.ofBits_def, Ideal.ofBits_zero_f32, zero_add]
  unfold rss
  refine Finset.sum_congr rfl fun c _ => ?_
  rw [ReadP.val_main_v7_apply, idx_v8_ix, Ideal.mulf_def]

/-- The reference's sums of squared norms: a scatter of the rows' sums of squares into zeros, the spec's `ssq`. -/
theorem v11_apply (x0 : (⟨S200000x256, .f32⟩ : BufTy).Contents (Elt Ideal))
    (x1 : (⟨S200000, .i32⟩ : BufTy).Contents (Elt Ideal)) (k : Fin 64) :
    ReadP.val_main_v11 (F := Ideal) x0 x1 (ix1 k)
      = ssq (fun r d => x0 (ix2 r d)) (fun r => x1 (ix1 r)) k := by
  unfold ReadP.val_main_v11
  simp only [Host.scatterAdd, Ideal.hostScatterAdd_def]
  refine (scat1_apply _ _ _ k).trans ?_
  unfold ssq
  rw [ReadP.val_main_v9_apply, ReadP.val_main_cst_3_apply, Ideal.ofBits_def, Ideal.ofBits_zero_f32, zero_add]
  refine Finset.sum_congr rfl fun r _ => ?_
  rw [ReadP.val_main_v10_apply, idx_v10_ix, v8_apply]

/-- Over the extended reals the float comparison is the order's comparison. -/
theorem cmpf_ideal (p : CmpFPredicate) (x y : EReal) :
    FloatOps.cmpf (F := Ideal) (φ := .f32) p x y = Ideal.cmp p x y := rfl

/-- The reference's loss is the spec's: the last sum runs over the 64 clusters; in each, the selected value is read
    stage by stage — the comparison of the count with 1, the difference of the sum of squared norms and the quotient
    of `∑ c, sums k c * sums k c` by `max (count) 1`, and 0 otherwise — and the three scattered quantities are the spec's
    by the lemmas above; the words of 0.0 and 1.0 are the reals 0 and 1. -/
theorem ref_result (x0 : (⟨S200000x256, .f32⟩ : BufTy).Contents (Elt Ideal)) (x1 : (⟨S200000, .i32⟩ : BufTy).Contents (Elt Ideal)) :
    ReadP.val_main_v21 (F := Ideal) x0 x1 ix0
      = Compact.tail (cnt (fun r => x1 (ix1 r))) (sums (fun r d => x0 (ix2 r d)) (fun r => x1 (ix1 r)))
          (ssq (fun r d => x0 (ix2 r d)) (fun r => x1 (ix1 r))) := by
  rw [ReadP.val_main_v21_apply, ReadP.val_main_cst_8_apply, Ideal.ofBits_def, Ideal.ofBits_zero_f32, zero_add]
  unfold Compact.tail
  refine (sum_idx1 _).trans ?_
  refine Finset.sum_congr rfl fun k _ => ?_
  rw [ReadP.val_main_v20_apply, ReadP.val_main_v19_apply, ReadP.val_main_v17_apply, ReadP.val_main_v16_apply,
    ReadP.val_main_v15_apply, ReadP.val_main_v13_apply, ReadP.val_main_v18_apply, ReadP.val_main_cst_6_apply,
    ReadP.val_main_v12_apply, ReadP.val_main_cst_4_apply, ReadP.val_main_call0_v1_apply,
    ReadP.val_main_call0_v0_apply, ReadP.val_main_cst_7_apply, ReadP.val_main_cst_5_apply, v3_apply, v11_apply]
  simp only [idx_v15_ix, ReadP.val_main_v14_apply, v6_apply, Ideal.ofBits_def, Ideal.ofBits_zero_f32,
    Compact.one_f32, zero_add, Ideal.subf_def, Ideal.hostDivf_def, Ideal.maximumf_def, Ideal.mulf_def, cmpf_ideal]

end Cert.ReferenceIdeal.RefValue

end
-- ==== Proof.KPieces.lean ====
import proofs.«414399_j7507602833894_3_alg».proof.Proof.Gen.KernelIdeal.Frame
import Idealize.ShloMosaic.Lib.Pipeline.Value
import Idealize.ShloMosaic.Lib.Tactic

/-!
# What one grid point leaves in the two accumulators

The kernel body keeps two running sums in its output staging buffers: a `1 × 64 × 256` block (the one-hot
matrix product of the segment ids with the tile's rows) and a `1 × 64 × 3` block (the same product against
the three auxiliary columns). Each buffer is always read and written as a whole, through the rectangle at
offset zero whose extents are the buffer's own.

A grid point is in one of two cases.

* First tile of a half (`cond0_0 i`): the body first overwrites each buffer with zeros, then reads the
  buffer back, adds the tile's contribution and overwrites it again. The buffer therefore ends at
  "tile's contribution added to zero", whatever it held before.
* Any other tile: the body reads the running contents, adds the tile's contribution, and overwrites.
  The buffer ends at "tile's contribution added to what the previous point left".

The four theorems below say exactly this, with the contribution-plus-accumulator expressed by the payload
terms `k0_pay6` (first buffer) and `k0_pay1 ∘ k0_pay7` (second buffer), the zeros by `k0_pay2` and
`k0_pay3`. The payloads stay folded: nothing here depends on what they compute, only on which values they
are applied to.

The reasoning is the same each time. Because the stores tile the buffer, reading the buffer after them is
the same as reading the list of stored pieces alone, latest first. A whole-buffer store that comes last
hides everything before it, so the result is that store's value. That value mentions whole-buffer loads;
a whole-buffer load of known contents returns those contents, and a whole-buffer load taken right after a
single whole-buffer store returns what was stored.
-/

noncomputable section

namespace Cert.KernelIdeal.Pieces

open Idealize.ShloMosaic Idealize.ShloMosaic.TcCoe Idealize.SL.Sem
open Cert.KernelIdeal Cert.KernelIdeal.Gen

variable {F : FTy → Type} [FloatOps F]

/-- The offset of every rank-3 access in the body, written out coordinate by coordinate, is the zero
    offset. -/
private theorem offset3_zero : (![0, 0, 0] : Fin 3 → Nat) = fun _ => 0 :=
  funext fun a => by fin_cases a <;> rfl

/-- The same for the rank-2 access (the load of the tile's rows). -/
private theorem offset2_zero : (![0, 0] : Fin 2 → Nat) = fun _ => 0 :=
  funext fun a => by fin_cases a <;> rfl

/-- First tile of a half, first accumulator. Two whole-buffer stores happen in order: zeros, then
    `k0_pay6 rows ids acc` where `acc` is the buffer read back between the two stores. The later store
    covers the buffer, so it alone decides the final contents; and `acc`, a whole-buffer load straight
    after the zeroing store, is the zeros. The loads of the two inputs return the inputs themselves. Hence
    the buffer ends at `k0_pay6 x0 x1 zeros`. -/
theorem out_A_2 (c : Dev nD) (i : grid0.Coords) (a2 : Memref sig .tc .vmem S5120x256 .f32) (h2 : a2.IsWhole) (a3 : Memref sig .tc .vmem S1x1x5120 .i32) (h3 : a3.IsWhole) (a4 : Memref sig .tc .vmem S1x64x256 .f32) (h4 : a4.IsWhole) (a5 : Memref sig .tc .vmem S1x64x3 .f32) (h5 : a5.IsWhole) (hc : cond0_0 i)
    (x0 : Vec F S5120x256 .f32) (x1 : Vec F S1x1x5120 .i32) :
    out0_A_2 c i a2 h2 a3 h3 a4 h4 a5 h5 hc x0 x1 = k0_pay6 x0 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x64x256) offset3_zero,
    View.readCov_unit_zero (S := S1x64x256) _ offset3_zero]
  simp only [View.readAt_eq_ld, h2.read_unread, h3.read_unread,
    View.ld_unit_zero (S := S5120x256) offset2_zero, View.ld_unit_zero (S := S1x1x5120) offset3_zero]

/-- First tile of a half, second accumulator. The same two-store pattern on the `1 × 64 × 3` buffer:
    zeros, then the reshaped `k0_pay7 rows ids acc` with `acc` the read-back of the zeros. The last store
    covers, the read-back is the zeros, the input loads are the inputs: the buffer ends at
    `k0_pay1 (k0_pay7 x0 x1 zeros)`. -/
theorem out_A_3 (c : Dev nD) (i : grid0.Coords) (a2 : Memref sig .tc .vmem S5120x256 .f32) (h2 : a2.IsWhole) (a3 : Memref sig .tc .vmem S1x1x5120 .i32) (h3 : a3.IsWhole) (a4 : Memref sig .tc .vmem S1x64x256 .f32) (h4 : a4.IsWhole) (a5 : Memref sig .tc .vmem S1x64x3 .f32) (h5 : a5.IsWhole) (hc : cond0_0 i)
    (x0 : Vec F S5120x256 .f32) (x1 : Vec F S1x1x5120 .i32) :
    out0_A_3 c i a2 h2 a3 h3 a4 h4 a5 h5 hc x0 x1 = k0_pay1 (k0_pay7 x0 x1 (k0_pay3 (F := F))) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x64x3) offset3_zero,
    View.readCov_unit_zero (S := S1x64x3) _ offset3_zero]
  simp only [View.readAt_eq_ld, h2.read_unread, h3.read_unread,
    View.ld_unit_zero (S := S5120x256) offset2_zero, View.ld_unit_zero (S := S1x1x5120) offset3_zero]

/-- Any later tile, first accumulator. There is a single whole-buffer store, of `k0_pay6 rows ids acc`,
    and `acc` is a whole-buffer load of the running contents `xo2` (nothing was stored before it at this
    point). One covering store leaves its value; each load returns the contents it reads. Hence the buffer
    ends at `k0_pay6 x0 x1 xo2`: the previous sum plus this tile's contribution. -/
theorem out_B_2 (c : Dev nD) (i : grid0.Coords) (a2 : Memref sig .tc .vmem S5120x256 .f32) (h2 : a2.IsWhole) (a3 : Memref sig .tc .vmem S1x1x5120 .i32) (h3 : a3.IsWhole) (a4 : Memref sig .tc .vmem S1x64x256 .f32) (h4 : a4.IsWhole) (a5 : Memref sig .tc .vmem S1x64x3 .f32) (h5 : a5.IsWhole) (hc : ¬cond0_0 i)
    (x0 : Vec F S5120x256 .f32) (x1 : Vec F S1x1x5120 .i32) (xo2 : Vec F S1x64x256 .f32) (xo3 : Vec F S1x64x3 .f32) :
    out0_B_2 c i a2 h2 a3 h3 a4 h4 a5 h5 hc x0 x1 xo2 xo3 = k0_pay6 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero (S := S1x64x256) offset3_zero]
  simp only [View.readAt_eq_ld, h2.read_unread, h3.read_unread, h4.read_unread,
    View.ld_unit_zero (S := S5120x256) offset2_zero, View.ld_unit_zero (S := S1x1x5120) offset3_zero,
    View.ld_unit_zero (S := S1x64x256) offset3_zero]

/-- Any later tile, second accumulator. A single whole-buffer store of the reshaped
    `k0_pay7 rows ids acc`, with `acc` a whole-buffer load of the running contents `xo3`. As above the
    buffer ends at `k0_pay1 (k0_pay7 x0 x1 xo3)`. -/
theorem out_B_3 (c : Dev nD) (i : grid0.Coords) (a2 : Memref sig .tc .vmem S5120x256 .f32) (h2 : a2.IsWhole) (a3 : Memref sig .tc .vmem S1x1x5120 .i32) (h3 : a3.IsWhole) (a4 : Memref sig .tc .vmem S1x64x256 .f32) (h4 : a4.IsWhole) (a5 : Memref sig .tc .vmem S1x64x3 .f32) (h5 : a5.IsWhole) (hc : ¬cond0_0 i)
    (x0 : Vec F S5120x256 .f32) (x1 : Vec F S1x1x5120 .i32) (xo2 : Vec F S1x64x256 .f32) (xo3 : Vec F S1x64x3 .f32) :
    out0_B_3 c i a2 h2 a3 h3 a4 h4 a5 h5 hc x0 x1 xo2 xo3 = k0_pay1 (k0_pay7 x0 x1 xo3) := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero (S := S1x64x3) offset3_zero]
  simp only [View.readAt_eq_ld, h2.read_unread, h3.read_unread, h5.read_unread,
    View.ld_unit_zero (S := S5120x256) offset2_zero, View.ld_unit_zero (S := S1x1x5120) offset3_zero,
    View.ld_unit_zero (S := S1x64x3) offset3_zero]

end Cert.KernelIdeal.Pieces

end
-- ==== Proof.KPayload.lean ====
import proofs.«414399_j7507602833894_3_alg».proof.Proof.Gen.KernelIdeal.Skeleton
import proofs.«414399_j7507602833894_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
  The kernel body's arithmetic, read one element at a time over the extended reals.

  One step of the body works on a tile of 5120 rows `x` (256 features each) with their id words `w`.  It builds the
  64 × 5120 one-hot matrix `H`, `H k j = 1` when word `j` is the number `k` and `0` otherwise, and adds to two
  running blocks the products `H · x` (64 × 256: the per-cluster feature sums of the tile) and `H · A` (64 × 3), where
  row `j` of `A` is `(1, ‖x j‖², ‖x j‖² - ‖x j‖²)`: the count, the sum of squares, and the low part of a two-term
  split of it.  Every change of number format is the identity on the extended reals, so each product entry is a plain
  finite sum over the tile's rows; these are the specification's `tile2` and `tile3`.  The two blocks start from zero.
-/

noncomputable section

namespace Cert.KernelIdeal.Payload

open Idealize.ShloMosaic Idealize.ShloMosaic.ValueIdx
open Cert.KernelIdeal Cert.KernelIdeal.Gen Cert.Compact

/-! ## The two starting blocks

Each is the splat of the single-precision zero word, seen through a reshape that only adds a leading axis of
length one; the zero word denotes the real number 0. -/

theorem pay2_apply (k : Fin 64) (d : Fin 256) : k0_pay2 (F := Ideal) (ix3 (0 : Fin 1) k d) = 0 := by
  unfold k0_pay2
  refine (shapeCast_ab_1ab_apply _ _ (0 : Fin 1) k d).trans ?_
  exact Ideal.ofBits_zero_f32

theorem pay3_apply (k : Fin 64) (a : Fin 3) : k0_pay3 (F := Ideal) (ix3 (0 : Fin 1) k a) = 0 := by
  unfold k0_pay3
  refine (shapeCast_ab_1ab_apply _ _ (0 : Fin 1) k a).trans ?_
  exact Ideal.ofBits_zero_f32

/-! ## The index maps of the two products

Both products contract the left factor's second axis with the right factor's first.  So at output entry `(r, c)` and
contraction position `q` the left factor is read at `(r, q)` and the right factor at `(q, c)`.  One statement per
factor and axis, first for the 64 × 5120 by 5120 × 256 product and then for the 64 × 5120 by 5120 × 3 one. -/

/-- Features product, left factor: the row is the output's row. -/
theorem lhs_D2_0 (i : S64x256.Idx) (q : dot_S64x5120_S5120x256_S64x256_1_0_0_1_n_n.contr.Idx) :
    (dot_S64x5120_S5120x256_S64x256_1_0_0_1_n_n.lhsIdx i q 0).val = (i 0).val := by
  unfold DotDims.lhsIdx
  rw [dif_neg (show ¬(0 : Fin S64x5120.rank) ∈ dot_S64x5120_S5120x256_S64x256_1_0_0_1_n_n.lhsBatch by decide),
    dif_pos (show (0 : Fin S64x5120.rank) ∈ dot_S64x5120_S5120x256_S64x256_1_0_0_1_n_n.lhsNonContracting by decide)]
  rfl
/-- Features product, left factor: the column is the contraction position. -/
theorem lhs_D2_1 (i : S64x256.Idx) (q : dot_S64x5120_S5120x256_S64x256_1_0_0_1_n_n.contr.Idx) :
    (dot_S64x5120_S5120x256_S64x256_1_0_0_1_n_n.lhsIdx i q 1).val = (q ⟨0, by decide⟩).val :=
  dot_S64x5120_S5120x256_S64x256_1_0_0_1_n_n.lhsIdx_val_of_single rfl i q
/-- Features product, right factor: the row is the contraction position. -/
theorem rhs_D2_0 (i : S64x256.Idx) (q : dot_S64x5120_S5120x256_S64x256_1_0_0_1_n_n.contr.Idx) :
    (dot_S64x5120_S5120x256_S64x256_1_0_0_1_n_n.rhsIdx i q 0).val = (q ⟨0, by decide⟩).val :=
  dot_S64x5120_S5120x256_S64x256_1_0_0_1_n_n.rhsIdx_val_of_single rfl i q
/-- Features product, right factor: the column is the output's column. -/
theorem rhs_D2_1 (i : S64x256.Idx) (q : dot_S64x5120_S5120x256_S64x256_1_0_0_1_n_n.contr.Idx) :
    (dot_S64x5120_S5120x256_S64x256_1_0_0_1_n_n.rhsIdx i q 1).val = (i 1).val := by
  unfold DotDims.rhsIdx
  rw [dif_neg (show ¬(1 : Fin S5120x256.rank) ∈ dot_S64x5120_S5120x256_S64x256_1_0_0_1_n_n.rhsBatch by decide),
    dif_pos (show (1 : Fin S5120x256.rank) ∈ dot_S64x5120_S5120x256_S64x256_1_0_0_1_n_n.rhsNonContracting by decide)]
  rfl

/-- Auxiliary product, left factor: the row is the output's row. -/
theorem lhs_D3_0 (i : S64x3.Idx) (q : dot_S64x5120_S5120x3_S64x3_1_0_0_1_n_n.contr.Idx) :
    (dot_S64x5120_S5120x3_S64x3_1_0_0_1_n_n.lhsIdx i q 0).val = (i 0).val := by
  unfold DotDims.lhsIdx
  rw [dif_neg (show ¬(0 : Fin S64x5120.rank) ∈ dot_S64x5120_S5120x3_S64x3_1_0_0_1_n_n.lhsBatch by decide),
    dif_pos (show (0 : Fin S64x5120.rank) ∈ dot_S64x5120_S5120x3_S64x3_1_0_0_1_n_n.lhsNonContracting by decide)]
  rfl
/-- Auxiliary product, left factor: the column is the contraction position. -/
theorem lhs_D3_1 (i : S64x3.Idx) (q : dot_S64x5120_S5120x3_S64x3_1_0_0_1_n_n.contr.Idx) :
    (dot_S64x5120_S5120x3_S64x3_1_0_0_1_n_n.lhsIdx i q 1).val = (q ⟨0, by decide⟩).val :=
  dot_S64x5120_S5120x3_S64x3_1_0_0_1_n_n.lhsIdx_val_of_single rfl i q
/-- Auxiliary product, right factor: the row is the contraction position. -/
theorem rhs_D3_0 (i : S64x3.Idx) (q : dot_S64x5120_S5120x3_S64x3_1_0_0_1_n_n.contr.Idx) :
    (dot_S64x5120_S5120x3_S64x3_1_0_0_1_n_n.rhsIdx i q 0).val = (q ⟨0, by decide⟩).val :=
  dot_S64x5120_S5120x3_S64x3_1_0_0_1_n_n.rhsIdx_val_of_single rfl i q
/-- Auxiliary product, right factor: the column is the output's column. -/
theorem rhs_D3_1 (i : S64x3.Idx) (q : dot_S64x5120_S5120x3_S64x3_1_0_0_1_n_n.contr.Idx) :
    (dot_S64x5120_S5120x3_S64x3_1_0_0_1_n_n.rhsIdx i q 1).val = (i 1).val := by
  unfold DotDims.rhsIdx
  rw [dif_neg (show ¬(1 : Fin S5120x3.rank) ∈ dot_S64x5120_S5120x3_S64x3_1_0_0_1_n_n.rhsBatch by decide),
    dif_pos (show (1 : Fin S5120x3.rank) ∈ dot_S64x5120_S5120x3_S64x3_1_0_0_1_n_n.rhsNonContracting by decide)]
  rfl

/-! ## The two products at an entry

Accumulating into the zero block, a matrix product over the extended reals is, at entry `(k, c)`, the sum over the
5120 contraction positions `j` of `L (k, j) · R (j, c)`: the sum over the one-axis contraction index is carried to
a sum over `Fin 5120` along the bijection between the two, and the factors' indices are named by the four axis
statements above. -/

theorem matmul2_apply (L : FVec Ideal S64x5120 .bf16) (R : FVec Ideal S5120x256 .bf16) (k : Fin 64) (d : Fin 256) :
    matmul dot_S64x5120_S5120x256_S64x256_1_0_0_1_n_n none L R (constant (F := Ideal) S64x256 .f32 0x00000000#32) (ix2 k d)
      = ∑ j : Fin 5120, L (ix2 k j) * R (ix2 j d) := by
  simp only [matmul]
  rw [Ideal.matmul_constant_zero_apply,
    ← Equiv.sum_comp (contrEquiv1 dot_S64x5120_S5120x256_S64x256_1_0_0_1_n_n 5120 rfl rfl).symm]
  refine Finset.sum_congr rfl fun j _ => ?_
  have hk := contrEquiv1_symm_val dot_S64x5120_S5120x256_S64x256_1_0_0_1_n_n 5120 rfl rfl j
  have el : dot_S64x5120_S5120x256_S64x256_1_0_0_1_n_n.lhsIdx (ix2 k d)
      ((contrEquiv1 dot_S64x5120_S5120x256_S64x256_1_0_0_1_n_n 5120 rfl rfl).symm j) = ix2 k j :=
    funext fun a => Fin.ext (by
      match a with
      | ⟨0, _⟩ => exact lhs_D2_0 _ _
      | ⟨1, _⟩ => exact (lhs_D2_1 _ _).trans hk)
  have er : dot_S64x5120_S5120x256_S64x256_1_0_0_1_n_n.rhsIdx (ix2 k d)
      ((contrEquiv1 dot_S64x5120_S5120x256_S64x256_1_0_0_1_n_n 5120 rfl rfl).symm j) = ix2 j d :=
    funext fun a => Fin.ext (by
      match a with
      | ⟨0, _⟩ => exact (rhs_D2_0 _ _).trans hk
      | ⟨1, _⟩ => exact rhs_D2_1 _ _)
  rw [el, er]

theorem matmul3_apply (L : FVec Ideal S64x5120 .bf16) (R : FVec Ideal S5120x3 .bf16) (k : Fin 64) (a : Fin 3) :
    matmul dot_S64x5120_S5120x3_S64x3_1_0_0_1_n_n none L R (constant (F := Ideal) S64x3 .f32 0x00000000#32) (ix2 k a)
      = ∑ j : Fin 5120, L (ix2 k j) * R (ix2 j a) := by
  simp only [matmul]
  rw [Ideal.matmul_constant_zero_apply,
    ← Equiv.sum_comp (contrEquiv1 dot_S64x5120_S5120x3_S64x3_1_0_0_1_n_n 5120 rfl rfl).symm]
  refine Finset.sum_congr rfl fun j _ => ?_
  have hk := contrEquiv1_symm_val dot_S64x5120_S5120x3_S64x3_1_0_0_1_n_n 5120 rfl rfl j
  have el : dot_S64x5120_S5120x3_S64x3_1_0_0_1_n_n.lhsIdx (ix2 k a)
      ((contrEquiv1 dot_S64x5120_S5120x3_S64x3_1_0_0_1_n_n 5120 rfl rfl).symm j) = ix2 k j :=
    funext fun b => Fin.ext (by
      match b with
      | ⟨0, _⟩ => exact lhs_D3_0 _ _
      | ⟨1, _⟩ => exact (lhs_D3_1 _ _).trans hk)
  have er : dot_S64x5120_S5120x3_S64x3_1_0_0_1_n_n.rhsIdx (ix2 k a)
      ((contrEquiv1 dot_S64x5120_S5120x3_S64x3_1_0_0_1_n_n 5120 rfl rfl).symm j) = ix2 j a :=
    funext fun b => Fin.ext (by
      match b with
      | ⟨0, _⟩ => exact (rhs_D3_0 _ _).trans hk
      | ⟨1, _⟩ => exact rhs_D3_1 _ _)
  rw [el, er]

/-! ## The one-hot matrix -/

/-- One entry, on words.  Comparing the id word `w` with the 32-bit word of the line number `k` gives the bit 1
    exactly when the two words are equal; widened to 32 bits and read as a signed integer that bit is the integer 1
    or 0, and its conversion to a real is exact.  That is the specification's one-hot entry. -/
theorem oh_word (w : BitVec 32) (k : Fin 64) :
    (FloatOps.sitofp (F := Ideal) .f32 ((IntOp.cmpi .eq w (BitVec.ofNat 32 k.val)).setWidth 32) : EReal) = oh w k := by
  show (((((IntOp.cmpi .eq w (BitVec.ofNat 32 k.val)).setWidth 32).toInt : ℝ)) : EReal) = oh w k
  unfold oh IntOp.cmpi
  by_cases h : w = BitVec.ofNat 32 k.val
  · rw [if_pos h]
    have hb : (w == BitVec.ofNat 32 k.val) = true := by rw [h]; exact beq_self_eq_true _
    rw [hb]
    have h1 : ((BitVec.ofBool true).setWidth 32).toInt = 1 := by decide
    rw [h1]; norm_num
  · rw [if_neg h]
    have hb : (w == BitVec.ofNat 32 k.val) = false := by
      rw [beq_eq_false_iff_ne]; exact h
    rw [hb]
    have h0 : ((BitVec.ofBool false).setWidth 32).toInt = 0 := by decide
    rw [h0]; norm_num

/-- Entry `(k, j)` of the body's one-hot matrix.  The id words arrive as a 1 × 1 × 5120 block; dropping its first
    axis and repeating the remaining row down 64 lines puts word `j` at `(k, j)`, and the line counter along the
    first axis puts the word of `k` there.  The comparison, the widening and the conversion act entrywise, and the
    final narrowing of the number format changes nothing, so the entry is `oh` of word `j` in line `k`. -/
theorem pay5_apply (x1 : Vec Ideal S1x1x5120 .i32) (k : Fin 64) (j : Fin 5120) :
    k0_pay5 (F := Ideal) x1 (ix2 k j) = oh (x1 (ix3 (0 : Fin 1) (0 : Fin 1) j)) k := by
  unfold k0_pay5
  have h8 : broadcastTo S64x5120 (shapeCast S1x5120 x1 shapeCasts_S1x1x5120_S1x5120) broadcasts_S1x5120_S64x5120 (ix2 k j)
      = x1 (ix3 (0 : Fin 1) (0 : Fin 1) j) :=
    (broadcastTo_1b_ab_apply _ _ k j).trans (shapeCast_1ab_ab_apply _ _ (0 : Fin 1) j)
  have h7 : iota .tc S64x5120 32 [0] iota_S64x5120_d0_w32 (ix2 k j) = BitVec.ofNat 32 k.val :=
    iota_single_apply .tc S64x5120 32 0 _ (ix2 k j)
  show (FloatOps.sitofp (F := Ideal) .f32 ((IntOp.cmpi .eq
      (broadcastTo S64x5120 (shapeCast S1x5120 x1 shapeCasts_S1x1x5120_S1x5120) broadcasts_S1x5120_S64x5120 (ix2 k j))
      (iota .tc S64x5120 32 [0] iota_S64x5120_d0_w32 (ix2 k j))).setWidth 32) : EReal) = _
  rw [h8, h7]
  exact oh_word _ k

/-! ## The features block after one step

The stored block is the loaded block plus `H · x`, both seen through reshapes that only drop or add the leading
axis of length one.  At `(k, d)` the product is `∑ j, H k j · x j d`; `H k j` is the one-hot entry and the
narrowing of `x` to the product's input format is the identity, so the sum is `tile2`. -/

theorem pay6_apply (x0 : Vec Ideal S5120x256 .f32) (x1 : Vec Ideal S1x1x5120 .i32) (acc : Vec Ideal S1x64x256 .f32)
    (k : Fin 64) (d : Fin 256) :
    k0_pay6 x0 x1 acc (ix3 (0 : Fin 1) k d)
      = acc (ix3 (0 : Fin 1) k d) + tile2 (fun j e => x0 (ix2 j e)) (fun j => x1 (ix3 (0 : Fin 1) (0 : Fin 1) j)) k d := by
  unfold k0_pay6
  refine (shapeCast_ab_1ab_apply _ _ (0 : Fin 1) k d).trans ?_
  refine (addf_apply _ _ (ix2 k d)).trans ?_
  refine congrArg₂ (· + ·) (shapeCast_1ab_ab_apply _ _ k d) ?_
  refine (matmul2_apply _ _ k d).trans ?_
  unfold tile2
  refine Finset.sum_congr rfl fun j _ => ?_
  refine congrArg₂ (· * ·) (pay5_apply x1 k j) ?_
  unfold k0_pay4
  rw [shapeCast_self]
  rfl

/-! ## The three auxiliary columns -/

/-- Three one-column pieces `A`, `B`, `C` of 5120 rows laid side by side along the column axis: column `c` of the
    5120 × 3 result, at row `j`, is the piece number `c` at `(j, 0)`.  Each piece is one column wide, so `c`
    columns lie before piece `c` and the position inside it is 0; the row is untouched. -/
theorem cols3_apply (A B C : FVec Ideal S5120x1 .bf16) (j : Fin 5120) (c : Nat) (hc : c < 3)
    (X : FVec Ideal S5120x1 .bf16)
    (hX : [(⟨S5120x1, A⟩ : (s : Shape) × (s.Idx → Ideal .bf16)), ⟨S5120x1, B⟩, ⟨S5120x1, C⟩][c]'hc = ⟨S5120x1, X⟩) :
    concatenate S5120x3 1 [⟨S5120x1, A⟩, ⟨S5120x1, B⟩, ⟨S5120x1, C⟩] concatenates_S5120x1_S5120x1_S5120x1_S5120x3_d1
        (ix2 j (⟨c, hc⟩ : Fin 3))
      = X (ix2 j (0 : Fin 1)) := by
  refine concatenate_apply_piece (1 : Fin S5120x3.rank)
    [(⟨S5120x1, A⟩ : (s : Shape) × (s.Idx → Ideal .bf16)), ⟨S5120x1, B⟩, ⟨S5120x1, C⟩]
    concatenates_S5120x1_S5120x1_S5120x1_S5120x3_d1 (ix2 j (⟨c, hc⟩ : Fin 3)) c hc S5120x1 X hX rfl c ?_
    (ix2 j (0 : Fin 1)) ?_ ?_
  · interval_cases c <;> rfl
  · intro b hb
    match b with
    | ⟨0, _⟩ => rfl
    | ⟨1, _⟩ => exact absurd rfl hb
  · show c + 0 = c
    rfl

/-- The sum of squares of row `j`, as the body computes it: the tile times itself entrywise, summed along the
    feature axis into a vector of 5120 entries, and that vector written as a column.  At `(j, 0)` the column holds
    entry `j` of the vector (same position in row-major order), which is `∑ e, x j e · x j e`: the specification's
    `rss` of the row. -/
theorem rowsq_apply (x0 : Vec Ideal S5120x256 .f32) (j : Fin 5120) (u : Fin 1) :
    shapeCast S5120x1 (multiReduction (F := Ideal) .add [1] S5120 (mulf (k0_pay4 x0) (k0_pay4 x0)) 0x00000000#32
        reduces_S5120x256_S5120 (.inl rfl) rfl) shapeCasts_S5120_S5120x1 (ix2 j u)
      = rss (fun e => x0 (ix2 j e)) := by
  refine (shapeCast_apply _ _ (ix2 j u) (ix1 j) ?_).trans ?_
  · rw [Shape.rowMajor_val_one, Shape.rowMajor_val_two]
    show j.val = j.val * 1 + u.val
    omega
  refine (Ideal.multiReduction_add_single _ 0x00000000#32 reduces_S5120x256_S5120 (.inl rfl) rfl (ix1 j)).trans ?_
  unfold rss
  show ∑ e : Fin 256, _ = _
  refine Finset.sum_congr rfl fun e _ => ?_
  have hl : reduces_S5120x256_S5120.lift (ix1 j) e = ix2 j e :=
    funext fun a => Fin.ext (by match a with | ⟨0, _⟩ => rfl | ⟨1, _⟩ => rfl)
  rw [hl]
  unfold k0_pay4
  rw [shapeCast_self]
  rfl

/-! ## The auxiliary block after one step

The stored block is the loaded block plus `H · A`, through the same leading-axis reshapes.  At `(k, a)` the product
is `∑ j, H k j · A j a`, and row `j` of `A` is read column by column: column 0 is the splat of the half-width word
of 1.0, which denotes 1; column 1 is the row's sum of squares (narrowing it changes nothing); column 2 is that sum
less itself, kept as the difference it is (over the extended reals it need not be 0).  These are the three entries
of the specification's `auxcol`, so the sum is `tile3`. -/

theorem pay71_apply (x0 : Vec Ideal S5120x256 .f32) (x1 : Vec Ideal S1x1x5120 .i32) (acc : Vec Ideal S1x64x3 .f32)
    (k : Fin 64) (a : Fin 3) :
    k0_pay1 (k0_pay7 x0 x1 acc) (ix3 (0 : Fin 1) k a)
      = acc (ix3 (0 : Fin 1) k a) + tile3 (fun j e => x0 (ix2 j e)) (fun j => x1 (ix3 (0 : Fin 1) (0 : Fin 1) j)) k a := by
  unfold k0_pay1 k0_pay7
  refine (shapeCast_ab_1ab_apply _ _ (0 : Fin 1) k a).trans ?_
  refine (addf_apply _ _ (ix2 k a)).trans ?_
  refine congrArg₂ (· + ·) (shapeCast_1ab_ab_apply _ _ k a) ?_
  refine (matmul3_apply _ _ k a).trans ?_
  unfold tile3
  refine Finset.sum_congr rfl fun j _ => ?_
  refine congrArg₂ (· * ·) (pay5_apply x1 k j) ?_
  obtain ⟨c, hc⟩ := a
  unfold auxcol
  interval_cases c
  · refine (cols3_apply _ _ _ j 0 (by decide) _ rfl).trans ?_
    exact one_bf16
  · refine (cols3_apply _ _ _ j 1 (by decide) _ rfl).trans ?_
    exact rowsq_apply x0 j 0
  · refine (cols3_apply _ _ _ j 2 (by decide) _ rfl).trans ?_
    exact congrArg₂ (· - ·) (rowsq_apply x0 j 0) (rowsq_apply x0 j 0)

end Cert.KernelIdeal.Payload

end
-- ==== Proof.KBlocks.lean ====
import proofs.«414399_j7507602833894_3_alg».proof.Proof.Gen.KernelIdeal.Frame
import proofs.«414399_j7507602833894_3_alg».proof.Proof.Spec
import Idealize.ShloMosaic.Lib.Pipeline.Value
import Idealize.ShloMosaic.Lib.ValueIdx
import Idealize.ShloMosaic.Lib.StableHlo.Run
import Idealize.ShloMosaic.Lib.KernelVsHost

noncomputable section

namespace Cert.KernelIdeal.Blocks

open Idealize.ShloMosaic Idealize.ShloMosaic.TcCoe Idealize.SL.Sem Idealize.ShloMosaic.ValueIdx
open Cert.KernelIdeal Cert.KernelIdeal.Gen Cert.Compact

variable (m : (ℓ : Loc nD τ sig) → Buf (Elt Ideal) ℓ)

/-- The features and the ids of core `c`'s arguments, as functions of a row. -/
def X (c : Dev nD) : Fin 200000 → Fin 256 → EReal := fun r d => m ((c : Thread nD τ).loc main_arg0) (ix2 r d)
def I (c : Dev nD) : Fin 200000 → BitVec 32 := fun r => m ((c : Thread nD τ).loc main_arg1) (ix1 r)

/-- The two input blocks at a point, under their literal types. -/
abbrev xb (c : Dev nD) (t : Fin cfg0.N) : Vec Ideal S5120x256 .f32 := iblk m c 0 t
abbrev ib (c : Dev nD) (t : Fin cfg0.N) : Vec Ideal S1x1x5120 .i32 := iblk m c 1 t

/-- A grid point as a tile number. -/
def tl (t : Fin cfg0.N) : Fin 40 := ⟨t.val, lt_of_lt_of_eq t.isLt (show cfg0.N = 40 from N_0)⟩

/-! ## What the two staged arrays hold when the kernel starts

Before the kernel runs, the program pads the features with 4800 rows of the number that the integer word 0 converts
to, and pads the ids with 4800 words 64 and then regards the 204800 ids as 40 tiles of one row of 5120. -/

/-- The array window 0 stages: the features, padded below with 4800 rows of the converted zero word. -/
theorem v0_eq (c : Dev nD) :
    (V m c main_v0 : S204800x256.Idx → EReal)
      = pad S204800x256 ![0, 0] ![4800, 0] ![0, 0] (m ((c : Thread nD τ).loc main_arg0))
          (sitofp (F := Ideal) .f32 (constantI S_ 32 0#32)) pads_S200000x256_S204800x256_048000_000 h_S_ := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The array window 1 stages: the ids, padded with 4800 words 64, re-indexed as 40 × 1 × 5120 in row-major order. -/
theorem v2_eq (c : Dev nD) :
    (V m c main_v2 : S40x1x5120.Idx → BitVec 32)
      = shapeCast S40x1x5120 (pad S204800 ![0] ![4800] ![0] (m ((c : Thread nD τ).loc main_arg1))
          (constantI S_ 32 64#32) pads_S200000_S204800_048000 h_S_) shapeCasts_S204800_S40x1x5120 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-! ## Which block a grid point reads

Point `t = 20 c + s` of the 2 × 20 grid reads block row `20 c + s = t` of the padded features (block column 0), and
tile `t` of the ids (the other two block coordinates 0). Both index maps are finite tables, checked point by point. -/

theorem idx0 : ∀ t : Fin cfg0.N, win0_0.index t (0 : Fin 2) = t.val ∧ win0_0.index t 1 = 0 :=
  (by decide +kernel : ∀ t : Fin grid0.N, win0_0.index t (0 : Fin 2) = t.val ∧ win0_0.index t 1 = 0)

theorem idx1 : ∀ t : Fin cfg0.N, win0_1.index t (0 : Fin 3) = t.val ∧ win0_1.index t 1 = 0 ∧ win0_1.index t 2 = 0 :=
  (by decide +kernel : ∀ t : Fin grid0.N, win0_1.index t (0 : Fin 3) = t.val ∧ win0_1.index t 1 = 0 ∧ win0_1.index t 2 = 0)

/-- There are 40 grid points. -/
theorem tl_lt (t : Fin cfg0.N) : t.val < 40 := (tl t).isLt

/-- Entry `(j, d)` of the feature block at point `t` is entry `(5120 t + j, d)` of the padded features: on each axis an
    element of a block sits at the block's index times the block's extent plus its coordinate inside the block. -/
theorem xb_read (c : Dev nD) (t : Fin cfg0.N) (j : Fin 5120) (d : Fin 256)
    (hb : t.val * 5120 + j.val < 204800) :
    xb m c t (ix2 j d) = (V m c main_v0 : S204800x256.Idx → EReal) (ix2 (⟨t.val * 5120 + j.val, hb⟩ : Fin 204800) d) := by
  unfold xb iblk
  rw [View.read_apply]
  show V m c main_v0 _ = V m c main_v0 _
  congr 1
  funext a
  apply Fin.ext
  match a with
  | ⟨0, _⟩ => show win0_0.index t 0 * 5120 + 1 * j.val = t.val * 5120 + j.val; rw [(idx0 t).1]; omega
  | ⟨1, _⟩ => show win0_0.index t 1 * 256 + 1 * d.val = d.val; rw [(idx0 t).2]; omega

/-- Entry `(0, 0, j)` of the id block at point `t` is entry `(t, 0, j)` of the tiled ids, by the same rule. -/
theorem ib_read (c : Dev nD) (t : Fin cfg0.N) (j : Fin 5120) (ht : t.val < 40) :
    ib m c t (ix3 (0 : Fin 1) (0 : Fin 1) j)
      = (V m c main_v2 : S40x1x5120.Idx → BitVec 32) (ix3 (⟨t.val, ht⟩ : Fin 40) (0 : Fin 1) j) := by
  unfold ib iblk
  rw [View.read_apply]
  show V m c main_v2 _ = V m c main_v2 _
  congr 1
  funext a
  apply Fin.ext
  match a with
  | ⟨0, _⟩ => show win0_1.index t 0 * 1 + 1 * 0 = t.val; rw [(idx1 t).1]; omega
  | ⟨1, _⟩ => show win0_1.index t 1 * 1 + 1 * 0 = 0; rw [(idx1 t).2.1]
  | ⟨2, _⟩ => show win0_1.index t 2 * 5120 + 1 * j.val = j.val; rw [(idx1 t).2.2]; omega

/-! ## The padded arrays read at a row

With no padding in front and none between entries, row `r` of a padded array is row `r` of the operand while
`r < 200000`, and the padding value from there on. -/

/-- The padded features read at row `r`: the argument's row while `r` is a row of it, else the padding value. -/
theorem pad0_apply (x : S200000x256.Idx → EReal) (v : S_.Idx → EReal) (r : Fin 204800) (d : Fin 256) :
    pad S204800x256 ![0, 0] ![4800, 0] ![0, 0] x v pads_S200000x256_S204800x256_048000_000 h_S_ (ix2 r d)
      = if h : r.val < 200000 then x (ix2 (⟨r.val, h⟩ : Fin 200000) d) else v (Shape.Idx.first h_S_) := by
  by_cases h : r.val < 200000
  · rw [dif_pos h]
    exact pad_apply_of_inside _ _ _ x v pads_S200000x256_S204800x256_048000_000 h_S_ _
      (ix2 (⟨r.val, h⟩ : Fin 200000) d) (by
        intro a
        match a with
        | ⟨0, _⟩ => show r.val = 0 + r.val * (0 + 1); omega
        | ⟨1, _⟩ => show d.val = 0 + d.val * (0 + 1); omega)
  · rw [dif_neg h]
    exact pad_apply_of_not_inside _ _ _ x v pads_S200000x256_S204800x256_048000_000 h_S_ _ (0 : Fin 2) (by
      intro hin
      have e : (r.val - 0) / (0 + 1) < 200000 := hin.2.2
      rw [Nat.zero_add, Nat.div_one, Nat.sub_zero] at e
      exact h e)

/-- The padded ids read at row `r`, the same way. -/
theorem pad1_apply (x : S200000.Idx → BitVec 32) (v : S_.Idx → BitVec 32) (r : Fin 204800) :
    pad S204800 ![0] ![4800] ![0] x v pads_S200000_S204800_048000 h_S_ (ix1 r)
      = if h : r.val < 200000 then x (ix1 (⟨r.val, h⟩ : Fin 200000)) else v (Shape.Idx.first h_S_) := by
  by_cases h : r.val < 200000
  · rw [dif_pos h]
    exact pad_apply_of_inside _ _ _ x v pads_S200000_S204800_048000 h_S_ _
      (ix1 (⟨r.val, h⟩ : Fin 200000)) (by
        intro a
        match a with
        | ⟨0, _⟩ => show r.val = 0 + r.val * (0 + 1); omega)
  · rw [dif_neg h]
    exact pad_apply_of_not_inside _ _ _ x v pads_S200000_S204800_048000 h_S_ _ (0 : Fin 1) (by
      intro hin
      have e : (r.val - 0) / (0 + 1) < 200000 := hin.2.2
      rw [Nat.zero_add, Nat.div_one, Nat.sub_zero] at e
      exact h e)

/-- The ids as 40 tiles of one row of 5120: entry `(t, 0, j)` has row-major position `(t · 1 + 0) · 5120 + j`, so it is
    row `5120 t + j` of the padded ids. -/
theorem cast1_apply (y : S204800.Idx → BitVec 32) (t : Fin 40) (j : Fin 5120) (hb : t.val * 5120 + j.val < 204800) :
    shapeCast S40x1x5120 y shapeCasts_S204800_S40x1x5120 (ix3 t (0 : Fin 1) j)
      = y (ix1 (⟨t.val * 5120 + j.val, hb⟩ : Fin 204800)) :=
  shapeCast_apply y shapeCasts_S204800_S40x1x5120 (ix3 t (0 : Fin 1) j) (ix1 (⟨t.val * 5120 + j.val, hb⟩ : Fin 204800)) (by
    rw [Shape.rowMajor_val_one, Shape.rowMajor_val_three]
    show t.val * 5120 + j.val = (t.val * 1 + 0) * 5120 + j.val
    omega)

/-! ## The blocks are the specification's tiles -/

/-- The feature block at point `t` is tile `t` of the padded features: its entry `(j, d)` is entry `(5120 t + j, d)` of the
    staged array, which is the argument's row `5120 t + j` while that is below 200000 and otherwise the padding value —
    the integer word 0 converted to a number, which is 0. -/
theorem xb_apply (c : Dev nD) (t : Fin cfg0.N) (j : Fin 5120) (d : Fin 256) :
    xb m c t (ix2 j d) = xtile (X m c) (tl t) j d := by
  have ht : t.val < 40 := tl_lt t
  have hj : j.val < 5120 := j.isLt
  have hb : t.val * 5120 + j.val < 204800 := by omega
  refine (xb_read m c t j d hb).trans ?_
  refine (congrFun (v0_eq m c) _).trans ?_
  refine (pad0_apply _ _ (⟨t.val * 5120 + j.val, hb⟩ : Fin 204800) d).trans ?_
  show _ = (if h : t.val * 5120 + j.val < 200000
      then X m c (⟨t.val * 5120 + j.val, h⟩ : Fin 200000) d else (0 : EReal))
  by_cases h : t.val * 5120 + j.val < 200000
  · rw [dif_pos h, dif_pos h]
    rfl
  · rw [dif_neg h, dif_neg h]
    show ((((0#32 : BitVec 32).toInt : ℤ) : ℝ) : EReal) = 0
    simp

/-- The id block at point `t` is tile `t` of the padded ids: its entry `(0, 0, j)` is entry `(t, 0, j)` of the tiled array,
    that is row `5120 t + j` of the padded ids: the argument's word while the row is below 200000, otherwise 64. -/
theorem ib_apply (c : Dev nD) (t : Fin cfg0.N) (j : Fin 5120) :
    ib m c t (ix3 (0 : Fin 1) (0 : Fin 1) j) = itile (I m c) (tl t) j := by
  have ht : t.val < 40 := tl_lt t
  have hj : j.val < 5120 := j.isLt
  have hb : t.val * 5120 + j.val < 204800 := by omega
  refine (ib_read m c t j ht).trans ?_
  refine (congrFun (v2_eq m c) _).trans ?_
  refine (cast1_apply _ (⟨t.val, ht⟩ : Fin 40) j hb).trans ?_
  refine (pad1_apply _ _ (⟨t.val * 5120 + j.val, hb⟩ : Fin 204800)).trans ?_
  show _ = (if h : t.val * 5120 + j.val < 200000
      then m ((c : Thread nD τ).loc main_arg1) (ix1 (⟨t.val * 5120 + j.val, h⟩ : Fin 200000)) else 64#32)
  by_cases h : t.val * 5120 + j.val < 200000
  · rw [dif_pos h, dif_pos h]
  · rw [dif_neg h, dif_neg h]
    rfl

end Cert.KernelIdeal.Blocks

end
-- ==== Proof.KAccum.lean ====
/-
  The two arrays the kernel's region leaves, read at an index.

  The region walks 40 grid points, point `t = 20 c + s` being step `s` of half `c`.  At each point the body loads tile
  `t` of the padded features and ids and adds the tile's one-hot sums into two staging buffers, one for the 256 feature
  columns and one for the three auxiliary columns; at the first step of a half (`t` a multiple of 20) it clears the buffers
  first, and after the last step of a half (`t ≡ 19` mod 20) the buffers are written back, as block `c` along the first
  axis of the two result arrays.

  So the contents of a buffer after point `n` are a running total that starts afresh every twenty points (`acc20`); by
  induction on the point it is the sum of the tiles' contributions since the half began (`outs2_eq`, `outs3_eq`), and at
  the last point of half `c` it is the half's whole sum over its twenty tiles, which is the specification's `part2` /
  `part3` (`last2_eq`, `last3_eq`).  The two write-backs, at points 19 and 39, fill blocks 0 and 1, which together are the
  whole array (`final2`, `final3`); read at `(c, k, d)` this is the statement.
-/
import proofs.«414399_j7507602833894_3_alg».proof.Proof.KPieces
import proofs.«414399_j7507602833894_3_alg».proof.Proof.KPayload
import proofs.«414399_j7507602833894_3_alg».proof.Proof.KBlocks
import Idealize.ShloMosaic.Lib.Pipeline.Value

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.Compact Cert.KernelIdeal.Blocks

/-! ## A sum that starts afresh every twenty steps -/

/-- The running total of a sequence `f` that is reset at every multiple of 20: at such a step it is the step's own
    term, at any other step the total before plus the step's term. -/
def acc20 (f : ℕ → EReal) : ℕ → EReal
  | 0 => f 0
  | n + 1 => if (n + 1) % 20 = 0 then f (n + 1) else acc20 f n + f (n + 1)

theorem acc20_reset (f : ℕ → EReal) (n : ℕ) (h : n % 20 = 0) : acc20 f n = f n := by
  cases n with
  | zero => rfl
  | succ n => exact if_pos h

theorem acc20_step (f : ℕ → EReal) (n : ℕ) (h : ¬(n + 1) % 20 = 0) : acc20 f (n + 1) = acc20 f n + f (n + 1) :=
  if_neg h

/-- Step `s` of the `q`-th run of twenty: the total is the sum of the run's terms so far. -/
theorem acc20_eq_sum (f : ℕ → EReal) (q : ℕ) : ∀ s : ℕ, s < 20 →
    acc20 f (20 * q + s) = ∑ s' ∈ Finset.range (s + 1), f (20 * q + s')
  | 0, _ => by
    rw [acc20_reset f (20 * q + 0) (by omega), Finset.sum_range_one]
  | s + 1, hs => by
    rw [show 20 * q + (s + 1) = (20 * q + s) + 1 from by omega, acc20_step f (20 * q + s) (by omega),
      acc20_eq_sum f q s (by omega), Finset.sum_range_succ (fun s' => f (20 * q + s')) (s + 1)]
    rfl

/-- At the last step of a run the total is the run's whole sum. -/
theorem acc20_last (f : ℕ → EReal) (q : ℕ) : acc20 f (20 * q + 19) = ∑ s : Fin 20, f (20 * q + s.val) := by
  rw [acc20_eq_sum f q 19 (by omega), Fin.sum_univ_eq_sum_range (fun s' => f (20 * q + s')) 20]

variable (m : (ℓ : Loc nD τ sig) → Buf (Elt Ideal) ℓ)

/-! ## What one grid point adds to the two staging buffers -/

/-- A natural number as a tile number (read modulo 40; only numbers below 40 are ever used). -/
def tq (n : ℕ) : Fin 40 := ⟨n % 40, Nat.mod_lt n (by decide)⟩

theorem tl_eq_tq (t : Fin cfg0.N) : tl t = tq t.val :=
  Fin.ext (Nat.mod_eq_of_lt (lt_of_lt_of_eq t.isLt (show cfg0.N = 40 from N_0))).symm

/-- Tile `n`'s one-hot sums into cluster `k`'s feature column `d`, and into its auxiliary column `a`. -/
def term2 (c : Dev nD) (k : Fin 64) (d : Fin 256) (n : ℕ) : EReal :=
  tile2 (xtile (X m c) (tq n)) (itile (I m c) (tq n)) k d
def term3 (c : Dev nD) (k : Fin 64) (a : Fin 3) (n : ℕ) : EReal :=
  tile3 (xtile (X m c) (tq n)) (itile (I m c) (tq n)) k a

/-- The blocks the body loads at point `t` are tile `t` of the padded inputs, so its one-hot sums are the tile's. -/
theorem tile2_blocks (c : Dev nD) (t : Fin cfg0.N) (k : Fin 64) (d : Fin 256) :
    tile2 (fun j e => xb m c t (ix2 j e)) (fun j => ib m c t (ix3 (0 : Fin 1) (0 : Fin 1) j)) k d = term2 m c k d t.val := by
  unfold term2
  rw [← tl_eq_tq]
  exact congrArg₂ (fun x i => tile2 x i k d) (funext fun j => funext fun e => xb_apply m c t j e)
    (funext fun j => ib_apply m c t j)

theorem tile3_blocks (c : Dev nD) (t : Fin cfg0.N) (k : Fin 64) (a : Fin 3) :
    tile3 (fun j e => xb m c t (ix2 j e)) (fun j => ib m c t (ix3 (0 : Fin 1) (0 : Fin 1) j)) k a = term3 m c k a t.val := by
  unfold term3
  rw [← tl_eq_tq]
  exact congrArg₂ (fun x i => tile3 x i k a) (funext fun j => funext fun e => xb_apply m c t j e)
    (funext fun j => ib_apply m c t j)

/-- At the first point of a half the feature buffer is cleared and then takes the tile's sums: it holds just those. -/
theorem step2_A (c : Dev nD) (t : Fin cfg0.N) (h0 : t.val % 20 = 0) (k : Fin 64) (d : Fin 256) :
    (outsAt0 m c t.val t.isLt).1 (ix3 (0 : Fin 1) k d) = term2 m c k d t.val := by
  rw [outsAt0_A m c t h0]
  dsimp only
  refine (congrFun (Pieces.out_A_2 (F := Ideal) c (grid0.coords t) (ms0_0 t) (hs0_0 t) (ms0_1 t) (hs0_1 t) (ms0_2 t) (hs0_2 t)
    (ms0_3 t) (hs0_3 t) ((hcond0_0 t).mpr h0) (xb m c t) (ib m c t)) (ix3 (0 : Fin 1) k d)).trans ?_
  rw [Payload.pay6_apply, Payload.pay2_apply, zero_add]
  exact tile2_blocks m c t k d

/-- At any other point it takes the tile's sums on top of what the point before left. -/
theorem step2_B (c : Dev nD) (t : Fin cfg0.N) (h0 : ¬t.val % 20 = 0) (k : Fin 64) (d : Fin 256) :
    (outsAt0 m c t.val t.isLt).1 (ix3 (0 : Fin 1) k d)
      = (outsAt0 m c (t.val - 1) (Nat.lt_of_le_of_lt (Nat.sub_le _ _) t.isLt)).1 (ix3 (0 : Fin 1) k d) + term2 m c k d t.val := by
  rw [outsAt0_B m c t h0]
  dsimp only
  refine (congrFun (Pieces.out_B_2 (F := Ideal) c (grid0.coords t) (ms0_0 t) (hs0_0 t) (ms0_1 t) (hs0_1 t) (ms0_2 t) (hs0_2 t)
    (ms0_3 t) (hs0_3 t) (fun h => h0 ((hcond0_0 t).mp h)) (xb m c t) (ib m c t)
    (outsAt0 m c (t.val - 1) (Nat.lt_of_le_of_lt (Nat.sub_le _ _) t.isLt)).1
    (outsAt0 m c (t.val - 1) (Nat.lt_of_le_of_lt (Nat.sub_le _ _) t.isLt)).2) (ix3 (0 : Fin 1) k d)).trans ?_
  rw [Payload.pay6_apply, tile2_blocks m c t k d]

/-- The same two facts for the auxiliary buffer. -/
theorem step3_A (c : Dev nD) (t : Fin cfg0.N) (h0 : t.val % 20 = 0) (k : Fin 64) (a : Fin 3) :
    (outsAt0 m c t.val t.isLt).2 (ix3 (0 : Fin 1) k a) = term3 m c k a t.val := by
  rw [outsAt0_A m c t h0]
  dsimp only
  refine (congrFun (Pieces.out_A_3 (F := Ideal) c (grid0.coords t) (ms0_0 t) (hs0_0 t) (ms0_1 t) (hs0_1 t) (ms0_2 t) (hs0_2 t)
    (ms0_3 t) (hs0_3 t) ((hcond0_0 t).mpr h0) (xb m c t) (ib m c t)) (ix3 (0 : Fin 1) k a)).trans ?_
  rw [Payload.pay71_apply, Payload.pay3_apply, zero_add]
  exact tile3_blocks m c t k a

theorem step3_B (c : Dev nD) (t : Fin cfg0.N) (h0 : ¬t.val % 20 = 0) (k : Fin 64) (a : Fin 3) :
    (outsAt0 m c t.val t.isLt).2 (ix3 (0 : Fin 1) k a)
      = (outsAt0 m c (t.val - 1) (Nat.lt_of_le_of_lt (Nat.sub_le _ _) t.isLt)).2 (ix3 (0 : Fin 1) k a) + term3 m c k a t.val := by
  rw [outsAt0_B m c t h0]
  dsimp only
  refine (congrFun (Pieces.out_B_3 (F := Ideal) c (grid0.coords t) (ms0_0 t) (hs0_0 t) (ms0_1 t) (hs0_1 t) (ms0_2 t) (hs0_2 t)
    (ms0_3 t) (hs0_3 t) (fun h => h0 ((hcond0_0 t).mp h)) (xb m c t) (ib m c t)
    (outsAt0 m c (t.val - 1) (Nat.lt_of_le_of_lt (Nat.sub_le _ _) t.isLt)).1
    (outsAt0 m c (t.val - 1) (Nat.lt_of_le_of_lt (Nat.sub_le _ _) t.isLt)).2) (ix3 (0 : Fin 1) k a)).trans ?_
  rw [Payload.pay71_apply, tile3_blocks m c t k a]

/-! ## The buffers after every point: the running totals -/

/-- After point `n` the feature buffer holds the total, since the half began, of the tiles' sums. -/
theorem outs2_eq (c : Dev nD) (k : Fin 64) (d : Fin 256) : ∀ (n : ℕ) (hn : n < cfg0.N),
    (outsAt0 m c n hn).1 (ix3 (0 : Fin 1) k d) = acc20 (term2 m c k d) n
  | 0, hn => (step2_A m c ⟨0, hn⟩ (Nat.zero_mod _) k d).trans (acc20_reset _ 0 (Nat.zero_mod _)).symm
  | n + 1, hn => by
    by_cases h0 : (n + 1) % 20 = 0
    · exact (step2_A m c ⟨n + 1, hn⟩ h0 k d).trans (acc20_reset _ (n + 1) h0).symm
    · refine (step2_B m c ⟨n + 1, hn⟩ h0 k d).trans ?_
      rw [acc20_step _ n h0]
      exact congrArg (· + term2 m c k d (n + 1)) (outs2_eq c k d n (Nat.lt_of_succ_lt hn))

/-- After point `n` the auxiliary buffer holds the total, since the half began, of the tiles' auxiliary sums. -/
theorem outs3_eq (c : Dev nD) (k : Fin 64) (a : Fin 3) : ∀ (n : ℕ) (hn : n < cfg0.N),
    (outsAt0 m c n hn).2 (ix3 (0 : Fin 1) k a) = acc20 (term3 m c k a) n
  | 0, hn => (step3_A m c ⟨0, hn⟩ (Nat.zero_mod _) k a).trans (acc20_reset _ 0 (Nat.zero_mod _)).symm
  | n + 1, hn => by
    by_cases h0 : (n + 1) % 20 = 0
    · exact (step3_A m c ⟨n + 1, hn⟩ h0 k a).trans (acc20_reset _ (n + 1) h0).symm
    · refine (step3_B m c ⟨n + 1, hn⟩ h0 k a).trans ?_
      rw [acc20_step _ n h0]
      exact congrArg (· + term3 m c k a (n + 1)) (outs3_eq c k a n (Nat.lt_of_succ_lt hn))

/-- Tile `20 cc + s` is step `s` of half `cc`. -/
theorem tq_pt (cc : Fin 2) (s : Fin 20) : tq (20 * cc.val + s.val) = pt cc s :=
  Fin.ext (Nat.mod_eq_of_lt (by have := cc.isLt; have := s.isLt; omega))

/-- After the last point of half `cc` the buffers hold that half's twenty tiles accumulated. -/
theorem last2_eq (c : Dev nD) (cc : Fin 2) (k : Fin 64) (d : Fin 256) (n : ℕ) (hn : n < cfg0.N) (h : n = 20 * cc.val + 19) :
    (outsAt0 m c n hn).1 (ix3 (0 : Fin 1) k d) = part2 (X m c) (I m c) cc k d := by
  subst h
  rw [outs2_eq m c k d _ hn, acc20_last]
  unfold part2 term2
  exact Finset.sum_congr rfl fun s _ => by rw [tq_pt]

theorem last3_eq (c : Dev nD) (cc : Fin 2) (k : Fin 64) (a : Fin 3) (n : ℕ) (hn : n < cfg0.N) (h : n = 20 * cc.val + 19) :
    (outsAt0 m c n hn).2 (ix3 (0 : Fin 1) k a) = part3 (X m c) (I m c) cc k a := by
  subst h
  rw [outs3_eq m c k a _ hn, acc20_last]
  unfold part3 term3
  exact Finset.sum_congr rfl fun s _ => by rw [tq_pt]

/-! ## From the buffers to the arrays -/

/-- The printed index maps of the two output windows, decided over the grid: the block written at point `t` is block
    `t / 20` along the first axis, block 0 along the others. -/
theorem idx_out2 : ∀ t : Fin cfg0.N, win0_2.index t (0 : Fin 3) = t.val / 20 ∧ win0_2.index t (1 : Fin 3) = 0
    ∧ win0_2.index t (2 : Fin 3) = 0 :=
  (by decide +kernel : ∀ t : Fin grid0.N, _)
theorem idx_out3 : ∀ t : Fin cfg0.N, win0_3.index t (0 : Fin 3) = t.val / 20 ∧ win0_3.index t (1 : Fin 3) = 0
    ∧ win0_3.index t (2 : Fin 3) = 0 :=
  (by decide +kernel : ∀ t : Fin grid0.N, _)

/-- What the two arrays end holding, as functions of a whole index: the half's accumulated sums. -/
def G2 (c : Dev nD) : Vec Ideal S2x64x256 .f32 := fun i => part2 (X m c) (I m c) (i 0) (i 1) (i 2)
def G3 (c : Dev nD) : Vec Ideal S2x64x3 .f32 := fun i => part3 (X m c) (I m c) (i 0) (i 1) (i 2)

/-- A point that writes the feature buffer back is the last of a half, and writes that half's block of `G2`. -/
theorem flushed2_eq (c : Dev nD) (t : Fin cfg0.N) (hf : (cfg0.win 2).flush t = true) :
    (dats m 0 c).flushed 2 t = ((cfg0.win 2).blk t).view.read (Elt Ideal) (G2 m c) := by
  have hN : t.val < 40 := lt_of_lt_of_eq t.isLt (show cfg0.N = 40 from N_0)
  have h19 : t.val % 20 = 19 := (flush0_2 t).mp hf
  obtain ⟨e0, e1, e2⟩ := idx_out2 t
  show (cfg0.win 2).cut (grid0.coords t) ((dats m 0 c).after 2 t) = _
  rw [after0_2]
  funext y
  have hy0 : (y 0).val < 1 := (y 0).isLt
  have hy1 : (y 1).val < 64 := (y 1).isLt
  have hy2 : (y 2).val < 256 := (y 2).isLt
  have hx : win0_2.xinj (grid0.coords t) y = ix3 (0 : Fin 1) (⟨(y 1).val, hy1⟩ : Fin 64) (⟨(y 2).val, hy2⟩ : Fin 256) := by
    funext a
    match a with
    | ⟨0, _⟩ => exact Fin.ext (by show (y 0).val = 0; omega)
    | ⟨1, _⟩ => rfl
    | ⟨2, _⟩ => rfl
  refine (congrArg (outsAt0 m c t.val t.isLt).1 hx).trans ?_
  rw [last2_eq m c ⟨t.val / 20, by omega⟩ _ _ t.val t.isLt (by show t.val = 20 * (t.val / 20) + 19; omega)]
  show _ = part2 (X m c) (I m c) ((((cfg0.win 2).blk t).view.emb y) 0) ((((cfg0.win 2).blk t).view.emb y) 1) ((((cfg0.win 2).blk t).view.emb y) 2)
  congr 1 <;> apply Fin.ext
  · show t.val / 20 = win0_2.index t (0 : Fin 3) * 1 + 1 * (y 0).val; omega
  · show (y 1).val = win0_2.index t (1 : Fin 3) * 64 + 1 * (y 1).val; omega
  · show (y 2).val = win0_2.index t (2 : Fin 3) * 256 + 1 * (y 2).val; omega

/-- The same for the auxiliary buffer. -/
theorem flushed3_eq (c : Dev nD) (t : Fin cfg0.N) (hf : (cfg0.win 3).flush t = true) :
    (dats m 0 c).flushed 3 t = ((cfg0.win 3).blk t).view.read (Elt Ideal) (G3 m c) := by
  have hN : t.val < 40 := lt_of_lt_of_eq t.isLt (show cfg0.N = 40 from N_0)
  have h19 : t.val % 20 = 19 := (flush0_3 t).mp hf
  obtain ⟨e0, e1, e2⟩ := idx_out3 t
  show (cfg0.win 3).cut (grid0.coords t) ((dats m 0 c).after 3 t) = _
  rw [after0_3]
  funext y
  have hy0 : (y 0).val < 1 := (y 0).isLt
  have hy1 : (y 1).val < 64 := (y 1).isLt
  have hy2 : (y 2).val < 3 := (y 2).isLt
  have hx : win0_3.xinj (grid0.coords t) y = ix3 (0 : Fin 1) (⟨(y 1).val, hy1⟩ : Fin 64) (⟨(y 2).val, hy2⟩ : Fin 3) := by
    funext a
    match a with
    | ⟨0, _⟩ => exact Fin.ext (by show (y 0).val = 0; omega)
    | ⟨1, _⟩ => rfl
    | ⟨2, _⟩ => rfl
  refine (congrArg (outsAt0 m c t.val t.isLt).2 hx).trans ?_
  rw [last3_eq m c ⟨t.val / 20, by omega⟩ _ _ t.val t.isLt (by show t.val = 20 * (t.val / 20) + 19; omega)]
  show _ = part3 (X m c) (I m c) ((((cfg0.win 3).blk t).view.emb y) 0) ((((cfg0.win 3).blk t).view.emb y) 1) ((((cfg0.win 3).blk t).view.emb y) 2)
  congr 1 <;> apply Fin.ext
  · show t.val / 20 = win0_3.index t (0 : Fin 3) * 1 + 1 * (y 0).val; omega
  · show (y 1).val = win0_3.index t (1 : Fin 3) * 64 + 1 * (y 1).val; omega
  · show (y 2).val = win0_3.index t (2 : Fin 3) * 3 + 1 * (y 2).val; omega

/-- The last point of half `h`, as a grid point. -/
def lastPt (h : ℕ) (hh : h < 2) : Fin cfg0.N := ⟨20 * h + 19, lt_of_lt_of_eq (by omega) (show cfg0.N = 40 from N_0).symm⟩

/-- The two write-backs of the feature buffer fill the whole array: index `(h, k, d)` lies in the block the last point of
    half `h` writes. So the array ends holding `G2`. -/
theorem final2 (c : Dev nD) : (dats m 0 c).arrAt 2 cfg0.N = G2 m c :=
  (dats m 0 c).arrAt_eq_of_cover 2 (G2 m c) (flushed2_eq m c) fun i => by
    have hi0 : (i 0 : Nat) < 2 := (i 0).isLt
    have hi1 : (i 1 : Nat) < 64 := (i 1).isLt
    have hi2 : (i 2 : Nat) < 256 := (i 2).isLt
    refine ⟨lastPt (i 0 : Nat) hi0, (flush0_2 _).mpr (by show (20 * (i 0 : Nat) + 19) % 20 = 19; omega), ?_⟩
    obtain ⟨e0, e1, e2⟩ := idx_out2 (lastPt (i 0 : Nat) hi0)
    have ev : (lastPt (i 0 : Nat) hi0).val = 20 * (i 0 : Nat) + 19 := rfl
    show i ∈ ((View.whole main_v3_0).slice (win0_2.rect (lastPt (i 0 : Nat) hi0))).set
    rw [View.set_slice_whole, Rect.mem_set_unit]
    intro a
    match a with
    | ⟨0, _⟩ =>
      show win0_2.index (lastPt (i 0 : Nat) hi0) (0 : Fin 3) * 1 ≤ (i 0 : Nat)
        ∧ (i 0 : Nat) < win0_2.index (lastPt (i 0 : Nat) hi0) (0 : Fin 3) * 1 + 1
      omega
    | ⟨1, _⟩ =>
      show win0_2.index (lastPt (i 0 : Nat) hi0) (1 : Fin 3) * 64 ≤ (i 1 : Nat)
        ∧ (i 1 : Nat) < win0_2.index (lastPt (i 0 : Nat) hi0) (1 : Fin 3) * 64 + 64
      omega
    | ⟨2, _⟩ =>
      show win0_2.index (lastPt (i 0 : Nat) hi0) (2 : Fin 3) * 256 ≤ (i 2 : Nat)
        ∧ (i 2 : Nat) < win0_2.index (lastPt (i 0 : Nat) hi0) (2 : Fin 3) * 256 + 256
      omega

theorem final3 (c : Dev nD) : (dats m 0 c).arrAt 3 cfg0.N = G3 m c :=
  (dats m 0 c).arrAt_eq_of_cover 3 (G3 m c) (flushed3_eq m c) fun i => by
    have hi0 : (i 0 : Nat) < 2 := (i 0).isLt
    have hi1 : (i 1 : Nat) < 64 := (i 1).isLt
    have hi2 : (i 2 : Nat) < 3 := (i 2).isLt
    refine ⟨lastPt (i 0 : Nat) hi0, (flush0_3 _).mpr (by show (20 * (i 0 : Nat) + 19) % 20 = 19; omega), ?_⟩
    obtain ⟨e0, e1, e2⟩ := idx_out3 (lastPt (i 0 : Nat) hi0)
    have ev : (lastPt (i 0 : Nat) hi0).val = 20 * (i 0 : Nat) + 19 := rfl
    show i ∈ ((View.whole main_v3_1).slice (win0_3.rect (lastPt (i 0 : Nat) hi0))).set
    rw [View.set_slice_whole, Rect.mem_set_unit]
    intro a
    match a with
    | ⟨0, _⟩ =>
      show win0_3.index (lastPt (i 0 : Nat) hi0) (0 : Fin 3) * 1 ≤ (i 0 : Nat)
        ∧ (i 0 : Nat) < win0_3.index (lastPt (i 0 : Nat) hi0) (0 : Fin 3) * 1 + 1
      omega
    | ⟨1, _⟩ =>
      show win0_3.index (lastPt (i 0 : Nat) hi0) (1 : Fin 3) * 64 ≤ (i 1 : Nat)
        ∧ (i 1 : Nat) < win0_3.index (lastPt (i 0 : Nat) hi0) (1 : Fin 3) * 64 + 64
      omega
    | ⟨2, _⟩ =>
      show win0_3.index (lastPt (i 0 : Nat) hi0) (2 : Fin 3) * 3 ≤ (i 2 : Nat)
        ∧ (i 2 : Nat) < win0_3.index (lastPt (i 0 : Nat) hi0) (2 : Fin 3) * 3 + 3
      omega

/-- The feature array after the run, at `(cc, k, d)`: half `cc`'s twenty tiles accumulated. -/
theorem final2_apply (c : Dev nD) (cc : Fin 2) (k : Fin 64) (d : Fin 256) :
    ((dats m 0 c).arrAt 2 cfg0.N : Vec Ideal S2x64x256 .f32) (ix3 cc k d) = part2 (X m c) (I m c) cc k d :=
  congrFun (final2 m c) (ix3 cc k d)

/-- The auxiliary array after the run, at `(cc, k, a)`: half `cc`'s twenty tiles accumulated. -/
theorem final3_apply (c : Dev nD) (cc : Fin 2) (k : Fin 64) (a : Fin 3) :
    ((dats m 0 c).arrAt 3 cfg0.N : Vec Ideal S2x64x3 .f32) (ix3 cc k a) = part3 (X m c) (I m c) cc k a :=
  congrFun (final3 m c) (ix3 cc k a)

end Cert.KernelIdeal.Accum

end
-- ==== Proof.KTail.lean ====
/-
  The end of the kernel's program, after its pipelined region.

  The region leaves two arrays: `A2`, of shape [2, 64, 256], holding for each half `c` of the tiles and each cluster
  `k` the columnwise sums of the cluster's rows met in that half, and `A3`, of shape [2, 64, 3], holding for each half
  and cluster three auxiliary sums: the number of rows, the sum of the rows' sums of squares, and a low-order
  correction term of that sum.  The 26 host operations that follow add the two halves (a sum over the leading
  axis), cut the [64, 3] array into its three columns, add columns 1 and 2 into the sum of squares, clamp the count
  at 1, take per cluster the squared norm of its feature sums, divide, subtract, keep the difference only where the
  count exceeds 1 (zero elsewhere), and add the 64 results.

  `tailK` is that chain as one function of the two arrays, built from named stages.  `tail_result` says the program's
  last value is `tailK` of the two arrays as the region leaves them (for every float instance).  `tailK_apply` reads
  `tailK` over the extended reals: it is the specification's `tail` at the count `∑ c, A3 c k 0`, the feature sums
  `∑ c, A2 c k d` and the sum of squares `∑ c, A3 c k 1 + ∑ c, A3 c k 2`.
-/
import proofs.«414399_j7507602833894_3_alg».proof.Proof.Gen.KernelIdeal.Frame
import proofs.«414399_j7507602833894_3_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Tail

open Idealize.ShloMosaic Idealize.ShloMosaic.TcCoe Idealize.SL.Sem Idealize.ShloMosaic.ValueIdx
open Cert.KernelIdeal Cert.KernelIdeal.Gen Cert.Compact

variable {F : FTy → Type} [FloatOps F]

/-! ## The stages of the tail, each a function of the arrays the region leaves -/

/-- The two halves' feature sums added: a [64, 256] array. -/
def sumA2 (A2 : Vec F S2x64x256 .f32) : FVec F S64x256 .f32 :=
  Host.reduceAdd A2 (constant (F := F) S_ .f32 0x00000000#32) reducesTo_S2x64x256_S64x256_d0 h_S_

/-- The two halves' three auxiliary sums added: a [64, 3] array. -/
def sumA3 (A3 : Vec F S2x64x3 .f32) : FVec F S64x3 .f32 :=
  Host.reduceAdd A3 (constant (F := F) S_ .f32 0x00000000#32) reducesTo_S2x64x3_S64x3_d0 h_S_

/-- Column 0 of the auxiliary sums: the row counts. -/
def cntCol (A3 : Vec F S2x64x3 .f32) : FVec F S64x1 .f32 :=
  extractStridedSlice S64x1 ![0, 0] (sumA3 A3) slices_S64x3_S64x1_0_0

/-- Column 1: the high part of the sums of squares. -/
def hiCol (A3 : Vec F S2x64x3 .f32) : FVec F S64x1 .f32 :=
  extractStridedSlice S64x1 ![0, 1] (sumA3 A3) slices_S64x3_S64x1_0_1

/-- Column 2: the low part of the sums of squares. -/
def loCol (A3 : Vec F S2x64x3 .f32) : FVec F S64x1 .f32 :=
  extractStridedSlice S64x1 ![0, 2] (sumA3 A3) slices_S64x3_S64x1_0_2

/-- The column of ones the counts are compared with and clamped at. -/
def oneCol : FVec F S64x1 .f32 :=
  broadcastInDim S64x1 ![] bcast_S_S64x1 (constant (F := F) S_ .f32 0x3F800000#32)

/-- Per cluster, the squared norm of its feature sums, as a column. -/
def normCol (A2 : Vec F S2x64x256 .f32) : FVec F S64x1 .f32 :=
  broadcastInDim S64x1 ![0] bcast_S64_S64x1_0
    (Host.reduceAdd (mulf (sumA2 A2) (sumA2 A2)) (constant (F := F) S_ .f32 0x00000000#32) reducesTo_S64x256_S64_d1 h_S_)

/-- Per cluster, its term of the loss: the scatter where the count exceeds one, zero elsewhere. -/
def lossCol (A2 : Vec F S2x64x256 .f32) (A3 : Vec F S2x64x3 .f32) : FVec F S64x1 .f32 :=
  select (cmpf (F := F) .ogt (cntCol A3) oneCol)
    (subf (addf (hiCol A3) (loCol A3)) (Host.divf (normCol A2) (maximumf (cntCol A3) oneCol)))
    (broadcastInDim S64x1 ![] bcast_S_S64x1 (id (constant (F := F) S_ .f32 0x00000000#32)))

/-- The host operations after the region, composed, as a function of the two arrays the region leaves. -/
def tailK (A2 : Vec F S2x64x256 .f32) (A3 : Vec F S2x64x3 .f32) : FVec F S_ .f32 :=
  Host.reduceAdd (lossCol A2 A3) (constant (F := F) S_ .f32 0x00000000#32) reducesTo_S64x1_S_d0_1 h_S_

/-! ## The program's last value is `tailK` of the region's two output arrays -/

set_option maxHeartbeats 1000000 in
/-- Running the host operations after the region, in order, on the buffers as the region leaves them: each
    operation's result is its function applied to its operands' results, the only buffers read that no host
    operation of the tail wrote are the region's output arrays 2 and 3, and what comes out is, operation for
    operation, the composition `tailK` names. -/
theorem tail_result (m : (ℓ : Loc nD τ sig) → Buf (Elt F) ℓ) (c : Dev nD) :
    Pipeline.afterTail₀ cfgs (dats m) 0 (V0 m) [hostOps1, hostOps1_1, hostOps1_2] c main_v20
      = tailK ((dats m 0 c).arrAt 2 cfg0.N) ((dats m 0 c).arrAt 3 cfg0.N) := by
  unfold Pipeline.afterTail₀
  simp only [hostOps1, hostOps1_1, hostOps1_2, List.flatten_cons, List.flatten_nil, List.append_nil, List.cons_append,
    List.nil_append]
  after_results
  simp only [StableHlo.TRef.ofBuf, StableHlo.TRef.toBuf, cast_eq]
  rw [Pipeline.withArrays_arr spec0 launch0.win.arr_inj c _ _ 2, Pipeline.withArrays_arr spec0 launch0.win.arr_inj c _ _ 3]
  rfl

/-! ## The stages read at an index, at the ideal instance -/

/-- The feature sums at (k, d): the two halves' entries added (the sum's initial value is the real 0). -/
theorem sumA2_apply (A2 : Vec Ideal S2x64x256 .f32) (k : Fin 64) (d : Fin 256) :
    sumA2 (F := Ideal) A2 (ix2 k d) = ∑ c : Fin 2, A2 (ix3 c k d) := by
  unfold sumA2
  simp only [Host.reduceAdd, Ideal.hostReduceAdd_def]
  rw [Ideal.hostReduceAdd_single reducesTo_S2x64x256_S64x256_d0 (by decide)]
  refine (congrArg (· + _) (show constant (F := Ideal) S_ .f32 0x00000000#32 (Shape.Idx.first h_S_) = 0 from Ideal.ofBits_zero_f32)).trans ?_
  rw [zero_add]
  refine Finset.sum_congr rfl fun c _ => ?_
  exact congrArg A2 (funext fun a => Fin.ext (by match a with | ⟨0, _⟩ => rfl | ⟨1, _⟩ => rfl | ⟨2, _⟩ => rfl))

/-- The auxiliary sums at (k, a): the two halves' entries added. -/
theorem sumA3_apply (A3 : Vec Ideal S2x64x3 .f32) (k : Fin 64) (a : Fin 3) :
    sumA3 (F := Ideal) A3 (ix2 k a) = ∑ c : Fin 2, A3 (ix3 c k a) := by
  unfold sumA3
  simp only [Host.reduceAdd, Ideal.hostReduceAdd_def]
  rw [Ideal.hostReduceAdd_single reducesTo_S2x64x3_S64x3_d0 (by decide)]
  refine (congrArg (· + _) (show constant (F := Ideal) S_ .f32 0x00000000#32 (Shape.Idx.first h_S_) = 0 from Ideal.ofBits_zero_f32)).trans ?_
  rw [zero_add]
  refine Finset.sum_congr rfl fun c _ => ?_
  exact congrArg A3 (funext fun b => Fin.ext (by match b with | ⟨0, _⟩ => rfl | ⟨1, _⟩ => rfl | ⟨2, _⟩ => rfl))

/-- Column 0 at row k: a unit-stride slice reads its operand at the offset plus the coordinate, here (k, 0 + 0); the
    entry is the two halves' counts added. -/
theorem cntCol_apply (A3 : Vec Ideal S2x64x3 .f32) (k : Fin 64) :
    cntCol (F := Ideal) A3 (ix2 k 0) = ∑ c : Fin 2, A3 (ix3 c k (0 : Fin 3)) := by
  unfold cntCol
  refine (extractStridedSlice_apply _ _ slices_S64x3_S64x1_0_0 (ix2 k 0) (ix2 k (0 : Fin 3)) fun a => ?_).trans (sumA3_apply A3 k 0)
  match a with
  | ⟨0, _⟩ => exact (Nat.zero_add _).symm
  | ⟨1, _⟩ => rfl

/-- Column 1 at row k: the two halves' high parts of the sum of squares added. -/
theorem hiCol_apply (A3 : Vec Ideal S2x64x3 .f32) (k : Fin 64) :
    hiCol (F := Ideal) A3 (ix2 k 0) = ∑ c : Fin 2, A3 (ix3 c k (1 : Fin 3)) := by
  unfold hiCol
  refine (extractStridedSlice_apply _ _ slices_S64x3_S64x1_0_1 (ix2 k 0) (ix2 k (1 : Fin 3)) fun a => ?_).trans (sumA3_apply A3 k 1)
  match a with
  | ⟨0, _⟩ => exact (Nat.zero_add _).symm
  | ⟨1, _⟩ => rfl

/-- Column 2 at row k: the two halves' low parts of the sum of squares added. -/
theorem loCol_apply (A3 : Vec Ideal S2x64x3 .f32) (k : Fin 64) :
    loCol (F := Ideal) A3 (ix2 k 0) = ∑ c : Fin 2, A3 (ix3 c k (2 : Fin 3)) := by
  unfold loCol
  refine (extractStridedSlice_apply _ _ slices_S64x3_S64x1_0_2 (ix2 k 0) (ix2 k (2 : Fin 3)) fun a => ?_).trans (sumA3_apply A3 k 2)
  match a with
  | ⟨0, _⟩ => exact (Nat.zero_add _).symm
  | ⟨1, _⟩ => rfl

/-- The column of ones is 1 in every row: the single-precision word of 1.0 read as a real. -/
theorem oneCol_apply (j : S64x1.Idx) : oneCol (F := Ideal) j = 1 := by
  unfold oneCol
  exact (broadcastInDim_apply _ bcast_S_S64x1 _ j ix0 (fun a => a.elim0)).trans Compact.one_f32

/-- The squared norm of cluster k's feature sums. -/
theorem normCol_apply (A2 : Vec Ideal S2x64x256 .f32) (k : Fin 64) :
    normCol (F := Ideal) A2 (ix2 k 0)
      = ∑ d : Fin 256, (∑ c : Fin 2, A2 (ix3 c k d)) * (∑ c : Fin 2, A2 (ix3 c k d)) := by
  unfold normCol
  refine (broadcastInDim_apply _ bcast_S64_S64x1_0 _ (ix2 k 0) (ix1 k) (fun a => ?_)).trans ?_
  · match a with
    | ⟨0, _⟩ => rfl
  simp only [Host.reduceAdd, Ideal.hostReduceAdd_def]
  rw [Ideal.hostReduceAdd_single reducesTo_S64x256_S64_d1 (by decide)]
  refine (congrArg (· + _) (show constant (F := Ideal) S_ .f32 0x00000000#32 (Shape.Idx.first h_S_) = 0 from Ideal.ofBits_zero_f32)).trans ?_
  rw [zero_add]
  refine Finset.sum_congr rfl fun d _ => ?_
  have e : (Shape.Reduces.lift (s := S64x256) (t := S64) (a := 1) (by decide) (ix1 k) d) = ix2 k d :=
    funext fun a => Fin.ext (by match a with | ⟨0, _⟩ => rfl | ⟨1, _⟩ => rfl)
  rw [e]
  exact congrArg₂ (· * ·) (sumA2_apply A2 k d) (sumA2_apply A2 k d)

/-- Cluster k's term of the loss, over the reals: where its count exceeds one, its sum of squares (high and low part)
    less the squared norm of its feature sums over the count clamped at one; zero elsewhere. -/
theorem lossCol_apply (A2 : Vec Ideal S2x64x256 .f32) (A3 : Vec Ideal S2x64x3 .f32) (k : Fin 64) :
    lossCol (F := Ideal) A2 A3 (ix2 k 0)
      = Scalar.select (Ideal.cmp .ogt (∑ c : Fin 2, A3 (ix3 c k (0 : Fin 3))) 1)
          (((∑ c : Fin 2, A3 (ix3 c k (1 : Fin 3))) + ∑ c : Fin 2, A3 (ix3 c k (2 : Fin 3)))
            - Ideal.div (∑ d : Fin 256, (∑ c : Fin 2, A2 (ix3 c k d)) * (∑ c : Fin 2, A2 (ix3 c k d)))
                (max (∑ c : Fin 2, A3 (ix3 c k (0 : Fin 3))) 1)) 0 := by
  have hz : broadcastInDim S64x1 ![] bcast_S_S64x1 (id (constant (F := Ideal) S_ .f32 0x00000000#32)) (ix2 k 0) = 0 :=
    (broadcastInDim_apply _ bcast_S_S64x1 _ (ix2 k 0) ix0 (fun a => a.elim0)).trans Ideal.ofBits_zero_f32
  show Scalar.select (Ideal.cmp .ogt (cntCol (F := Ideal) A3 (ix2 k 0)) (oneCol (F := Ideal) (ix2 k 0)))
      ((hiCol (F := Ideal) A3 (ix2 k 0) + loCol (F := Ideal) A3 (ix2 k 0))
        - Ideal.div (normCol (F := Ideal) A2 (ix2 k 0)) (max (cntCol (F := Ideal) A3 (ix2 k 0)) (oneCol (F := Ideal) (ix2 k 0))))
      (broadcastInDim S64x1 ![] bcast_S_S64x1 (id (constant (F := Ideal) S_ .f32 0x00000000#32)) (ix2 k 0)) = _
  rw [hz, cntCol_apply, hiCol_apply, loCol_apply, normCol_apply, oneCol_apply]

/-- The tail over the extended reals is the specification's loss of the three per-cluster quantities: the last sum
    runs over both axes of a [64, 1] column, that is over the 64 rows (the second axis has one coordinate), it starts
    from the real 0, and row k's entry is cluster k's term by `lossCol_apply`. -/
theorem tailK_apply (A2 : Vec Ideal S2x64x256 .f32) (A3 : Vec Ideal S2x64x3 .f32) :
    tailK A2 A3 ix0
      = Compact.tail (fun k => ∑ c : Fin 2, A3 (ix3 c k (0 : Fin 3))) (fun k d => ∑ c : Fin 2, A2 (ix3 c k d))
          (fun k => (∑ c : Fin 2, A3 (ix3 c k (1 : Fin 3))) + ∑ c : Fin 2, A3 (ix3 c k (2 : Fin 3))) := by
  unfold tailK Compact.tail
  simp only [Host.reduceAdd, Ideal.hostReduceAdd_def]
  refine (Ideal.hostReduceAdd_total reducesTo_S64x1_S_d0_1 (fun b => b.elim0) _ _ ix0).trans ?_
  refine (congrArg (· + _) (show constant (F := Ideal) S_ .f32 0x00000000#32 (Shape.Idx.first h_S_) = 0 from Ideal.ofBits_zero_f32)).trans ?_
  rw [zero_add, sum_idx2]
  refine Finset.sum_congr rfl fun k _ => ?_
  rw [Fin.sum_univ_one]
  exact lossCol_apply A2 A3 k

end Cert.KernelIdeal.Tail

end
-- ==== Proof.Algebra.lean ====
/-
  From tiles to rows.

  The kernel's sums run over (half, step, row in the tile); the reference's over the 200000 rows.  The 2 x 20 steps are
  the 40 tiles, the 40 x 5120 tile rows are the 204800 padded rows (row `j` of tile `t` is row `5120 t + j`), and a
  padded row carries the id 64, whose one-hot entry is 0 in every cluster's line, so it adds `0 * _ = 0`.  Hence, for any
  function `g` of a row of features, the tiled one-hot sum of `g` is the one-hot sum of `g` over the rows.  The extended
  reals are a commutative monoid under `+` with `0 * x = 0`, so none of this needs the entries to be finite.

  Finiteness is used once: the third auxiliary column is a row's sum of squares less itself, which is `0` when that sum is
  a real number (and is not when it is infinite).
-/
import proofs.«414399_j7507602833894_3_alg».proof.Proof.Spec
import Mathlib.Algebra.BigOperators.Fin
import Mathlib.Algebra.BigOperators.Intervals
import Mathlib.Data.EReal.Operations

noncomputable section

namespace Cert.Compact

open Idealize.ShloMosaic

/-- The tile rows are the padded rows: `(t, j) ↦ 5120 t + j` is a bijection. -/
def tileEquiv : Fin 40 × Fin 5120 ≃ Fin 204800 where
  toFun p := row p.1 p.2
  invFun r := (⟨r.val / 5120, by have := r.isLt; omega⟩, ⟨r.val % 5120, Nat.mod_lt _ (by norm_num)⟩)
  left_inv p := by
    rcases p with ⟨t, j⟩
    have hj := j.isLt
    refine Prod.ext (Fin.ext ?_) (Fin.ext ?_)
    · show (t.val * 5120 + j.val) / 5120 = t.val; omega
    · show (t.val * 5120 + j.val) % 5120 = j.val; omega
  right_inv r := by
    refine Fin.ext ?_
    show r.val / 5120 * 5120 + r.val % 5120 = r.val; omega

/-- The steps of the two halves are the tiles: `(c, s) ↦ 20 c + s` is a bijection. -/
def ptEquiv : Fin 2 × Fin 20 ≃ Fin 40 where
  toFun p := pt p.1 p.2
  invFun t := (⟨t.val / 20, by have := t.isLt; omega⟩, ⟨t.val % 20, Nat.mod_lt _ (by norm_num)⟩)
  left_inv p := by
    rcases p with ⟨c, s⟩
    have hs := s.isLt
    refine Prod.ext (Fin.ext ?_) (Fin.ext ?_)
    · show (20 * c.val + s.val) / 20 = c.val; omega
    · show (20 * c.val + s.val) % 20 = s.val; omega
  right_inv t := by
    refine Fin.ext ?_
    show 20 * (t.val / 20) + t.val % 20 = t.val; omega

/-- A sum over halves, steps and tile rows is the sum over the padded rows. -/
theorem sum_tiles (f : Fin 204800 → EReal) :
    ∑ c : Fin 2, ∑ s : Fin 20, ∑ j : Fin 5120, f (row (pt c s) j) = ∑ r : Fin 204800, f r := by
  rw [← tileEquiv.sum_comp f, Fintype.sum_prod_type]
  rw [← ptEquiv.sum_comp (fun t => ∑ j : Fin 5120, f (tileEquiv (t, j))), Fintype.sum_prod_type]
  rfl

/-- A sum over the padded rows of a function that vanishes on the padding is the sum over the rows. -/
theorem sum_pad (G : Fin 200000 → EReal) :
    ∑ r : Fin 204800, (if h : r.val < 200000 then G ⟨r.val, h⟩ else 0) = ∑ r : Fin 200000, G r := by
  let g : ℕ → EReal := fun n => if h : n < 200000 then G ⟨n, h⟩ else 0
  have e1 : ∑ r : Fin 204800, (if h : r.val < 200000 then G ⟨r.val, h⟩ else 0) = ∑ n ∈ Finset.range 204800, g n :=
    Fin.sum_univ_eq_sum_range g 204800
  have e2 : ∑ r : Fin 200000, G r = ∑ n ∈ Finset.range 200000, g n := by
    rw [← Fin.sum_univ_eq_sum_range g 200000]
    exact Finset.sum_congr rfl fun r _ => by
      show G r = if h : r.val < 200000 then G ⟨r.val, h⟩ else 0
      rw [dif_pos r.isLt]
  rw [e1, e2, ← Finset.sum_range_add_sum_Ico g (show 200000 ≤ 204800 by norm_num)]
  rw [Finset.sum_eq_zero (s := Finset.Ico 200000 204800) (fun n hn => dif_neg (by
    have := (Finset.mem_Ico.mp hn).1; omega)), add_zero]

/-- The padding's id is no cluster's. -/
theorem oh_pad (k : Fin 64) : oh 64#32 k = 0 := by
  unfold oh
  rw [if_neg]
  intro h
  have hk := k.isLt
  have := congrArg BitVec.toNat h
  simp only [BitVec.toNat_ofNat] at this
  omega

/-- One padded row's term: the row's own on a true row, nothing on the padding. -/
theorem term_pad (x : Fin 200000 → Fin 256 → EReal) (ids : Fin 200000 → BitVec 32) (g : (Fin 256 → EReal) → EReal)
    (k : Fin 64) (r : Fin 204800) :
    oh (idpad ids r) k * g (xpad x r) = if h : r.val < 200000 then oh (ids ⟨r.val, h⟩) k * g (x ⟨r.val, h⟩) else 0 := by
  by_cases h : r.val < 200000
  · rw [dif_pos h]
    have e1 : idpad ids r = ids ⟨r.val, h⟩ := dif_pos h
    have e2 : xpad x r = x ⟨r.val, h⟩ := funext fun d => dif_pos h
    rw [e1, e2]
  · rw [dif_neg h]
    have e1 : idpad ids r = 64#32 := dif_neg h
    rw [e1, oh_pad, zero_mul]

/-- THE RE-INDEXING: the tiled one-hot sum of any function of a feature row is its one-hot sum over the rows. -/
theorem sum_tiled (x : Fin 200000 → Fin 256 → EReal) (ids : Fin 200000 → BitVec 32) (g : (Fin 256 → EReal) → EReal)
    (k : Fin 64) :
    ∑ c : Fin 2, ∑ s : Fin 20, ∑ j : Fin 5120, oh (itile ids (pt c s) j) k * g (xtile x (pt c s) j)
      = ∑ r : Fin 200000, oh (ids r) k * g (x r) := by
  have := sum_tiles (fun r => oh (idpad ids r) k * g (xpad x r))
  refine (this.trans ?_)
  rw [← sum_pad (fun r => oh (ids r) k * g (x r))]
  exact Finset.sum_congr rfl fun r _ => term_pad x ids g k r

/-- The two halves' feature sums add up to the cluster's feature sum. -/
theorem sum_part2 (x : Fin 200000 → Fin 256 → EReal) (ids : Fin 200000 → BitVec 32) (k : Fin 64) (d : Fin 256) :
    ∑ c : Fin 2, part2 x ids c k d = sums x ids k d :=
  sum_tiled x ids (fun xr => xr d) k

/-- The two halves' first auxiliary column adds up to the cluster's count, -/
theorem sum_part3_0 (x : Fin 200000 → Fin 256 → EReal) (ids : Fin 200000 → BitVec 32) (k : Fin 64) :
    ∑ c : Fin 2, part3 x ids c k 0 = cnt ids k := by
  refine (sum_tiled x ids (fun xr => auxcol xr 0) k).trans ?_
  exact Finset.sum_congr rfl fun r _ => by
    show oh (ids r) k * 1 = oh (ids r) k
    rw [mul_one]

/-- the second to the cluster's sum of squared norms, -/
theorem sum_part3_1 (x : Fin 200000 → Fin 256 → EReal) (ids : Fin 200000 → BitVec 32) (k : Fin 64) :
    ∑ c : Fin 2, part3 x ids c k 1 = ssq x ids k :=
  sum_tiled x ids (fun xr => auxcol xr 1) k

/-- A real sum as an extended real is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A row of reals has a real sum of squares, so that sum less itself is zero. -/
theorem rss_sub_self (xr : Fin 256 → EReal) (h : ∀ d, ∃ y : ℝ, xr d = y) : rss xr - rss xr = 0 := by
  choose y hy using h
  have : rss xr = ((∑ d : Fin 256, y d * y d : ℝ) : EReal) := by
    unfold rss
    rw [coe_sum]
    exact Finset.sum_congr rfl fun d _ => by rw [hy d, EReal.coe_mul]
  rw [this, ← EReal.coe_sub, sub_self, EReal.coe_zero]

/-- and, on finite features, the third to zero. -/
theorem sum_part3_2 (x : Fin 200000 → Fin 256 → EReal) (ids : Fin 200000 → BitVec 32) (k : Fin 64)
    (hfin : ∀ r d, ∃ y : ℝ, x r d = y) :
    ∑ c : Fin 2, part3 x ids c k 2 = 0 := by
  refine (sum_tiled x ids (fun xr => auxcol xr 2) k).trans ?_
  refine Finset.sum_eq_zero fun r _ => ?_
  show oh (ids r) k * (rss (x r) - rss (x r)) = 0
  rw [rss_sub_self (x r) (hfin r), mul_zero]

end Cert.Compact

end
-- ==== Proof.Finite.lean ====
/-
  The precondition, read: every feature entry is a real number.

  `finite_inputs` says that the conjunction, over all entries, of `|x| < +∞` is true.  A conjunction that is true is
  true at every entry; `|x|` is `max x (-x)`, the word 0x7F800000 is `+∞`, and an extended real whose absolute value is
  below `+∞` is neither infinity, that is, a real.
-/
import proofs.«414399_j7507602833894_3_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Cert.Pre_finite_inputs

instance : Subsingleton S_.Idx := ⟨fun a b => funext fun d => d.elim0⟩

/-- The single-precision word 0x7F800000 is `+∞`. -/
theorem inf_f32 : Ideal.ofBits .f32 0x7F800000#32 = ⊤ := by
  simp [Ideal.ofBits, Ideal.ieee]

/-- An extended real whose absolute value is below `+∞` is a real. -/
theorem real_of_abs_lt_top (x : EReal) (h : max x (-x) < ⊤) : ∃ y : ℝ, x = y := by
  induction x using EReal.rec with
  | bot => exact absurd h (by simp)
  | coe y => exact ⟨y, rfl⟩
  | top => exact absurd h (by simp)

/-- Under the precondition every entry of the float argument is a real. -/
theorem real_of_pre [Facts] (a0 : FVec Ideal S200000x256 .f32) (a1 : IVec S200000 32)
    (h : fn (F := Ideal) a0 a1 = fun _ => 1#1) (i : S200000x256.Idx) : ∃ y : ℝ, a0 i = y := by
  have e := congrFun h ValueIdx.ix0
  dsimp only [fn] at e
  have hi := Host.reduce_andi_all _ _ _ _ _ e i
  refine real_of_abs_lt_top (a0 i) ?_
  have hc : Ideal.cmp .olt (max (a0 i) (-(a0 i))) (Ideal.ofBits .f32 0x7F800000#32) = 1#1 := hi
  rw [inf_f32] at hc
  have hc' : BitVec.ofBool (decide (max (a0 i) (-(a0 i)) < ⊤)) = 1#1 := hc
  by_contra hn
  rw [decide_eq_false hn] at hc'
  exact absurd hc' (by decide)

end Cert.Finite

end
-- ==== Proof.Claims.lean ====
/-
  The five claims, assembled.

  Frames: the kernel's two frames are the generated frame certificates; the reference has no kernel, and its frame is its
  run with the result dropped.  The idealization rewrote one round trip through half width into the identity, which is
  the rule's own statement.

  Equal results.  The kernel's run ends with its scalar result at the host tail applied to the two arrays its region
  leaves; read at the ideal instance the tail is the loss of (∑ over the two halves of the count column, of the feature
  sums, of the two sum-of-squares columns).  Each half's array is its twenty tiles' one-hot sums, the tiles are the
  padded rows, and the padding belongs to no cluster: so the halves add up to the per-cluster count, feature sum and sum
  of squared norms over the 200000 rows, the low sum-of-squares column adding nothing because the features are finite
  (`x - x = 0` on reals).  The reference's run ends at its own tail of the three accumulating scatters, which are those
  same three per-cluster sums.  Both results are the one loss of the one triple.
-/
import proofs.«414399_j7507602833894_3_alg».proof.Defs
import proofs.«414399_j7507602833894_3_alg».proof.Proof.Gen.Kernel.Frame
import proofs.«414399_j7507602833894_3_alg».proof.Proof.Gen.KernelIdeal.Frame
import proofs.«414399_j7507602833894_3_alg».proof.Proof.Gen.Pre_finite_inputs
import proofs.«414399_j7507602833894_3_alg».proof.Proof.RefValue
import proofs.«414399_j7507602833894_3_alg».proof.Proof.KAccum
import proofs.«414399_j7507602833894_3_alg».proof.Proof.KTail
import proofs.«414399_j7507602833894_3_alg».proof.Proof.Algebra
import proofs.«414399_j7507602833894_3_alg».proof.Proof.Finite

noncomputable section

open Idealize.ShloMosaic Idealize.ShloMosaic.TcCoe Idealize.SL.Sem Idealize.ShloMosaic.ValueIdx

/-! ## The kernel's result at the ideal instance -/

namespace Cert.KernelIdeal.Result

open Cert.KernelIdeal Cert.KernelIdeal.Gen Cert.Compact Cert.KernelIdeal.Blocks Cert.KernelIdeal.Accum Cert.KernelIdeal.Tail

variable (m : (ℓ : Loc nD τ sig) → Buf (Elt Ideal) ℓ) (ρ : Dev nD → PrngReg)

/-- The kernel's scalar result on core `c`: the host tail of the two arrays the region leaves. -/
abbrev result (c : Dev nD) : Buf (Elt Ideal) ((c : Thread nD τ).loc main_v20) :=
  tailK ((dats m 0 c).arrAt 2 cfg0.N) ((dats m 0 c).arrAt 3 cfg0.N)

/-- The run, read: the result buffer at `result`, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v20 (Pipeline.mem_restRefs_of main_v20 (by decide) (by decide))).trans (tail_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-- The two arrays the region leaves on core `c`, under their literal types. -/
abbrev A2 (c : Dev nD) : Vec Ideal S2x64x256 .f32 := (dats m 0 c).arrAt 2 cfg0.N
abbrev A3 (c : Dev nD) : Vec Ideal S2x64x3 .f32 := (dats m 0 c).arrAt 3 cfg0.N

/-- On finite features the result is the loss of the per-cluster count, feature sums and sum of squared norms. -/
theorem result_eq (c : Dev nD) (hfin : ∀ r d, ∃ y : ℝ, X m c r d = y) :
    result m c ix0 = Compact.tail (cnt (I m c)) (sums (X m c) (I m c)) (ssq (X m c) (I m c)) := by
  show tailK (A2 m c) (A3 m c) ix0 = _
  rw [tailK_apply (A2 m c) (A3 m c)]
  have h0 : (fun k : Fin 64 => ∑ cc : Fin 2, A3 m c (ix3 cc k (0 : Fin 3))) = cnt (I m c) := funext fun k => by
    have e0 : ∑ cc : Fin 2, A3 m c (ix3 cc k (0 : Fin 3)) = ∑ cc : Fin 2, part3 (X m c) (I m c) cc k 0 :=
      Finset.sum_congr rfl fun cc _ => final3_apply m c cc k 0
    exact e0.trans (sum_part3_0 _ _ k)
  have h2 : (fun (k : Fin 64) (d : Fin 256) => ∑ cc : Fin 2, A2 m c (ix3 cc k d)) = sums (X m c) (I m c) :=
    funext fun k => funext fun d => by
      have e : ∑ cc : Fin 2, A2 m c (ix3 cc k d) = ∑ cc : Fin 2, part2 (X m c) (I m c) cc k d :=
        Finset.sum_congr rfl fun cc _ => final2_apply m c cc k d
      exact e.trans (sum_part2 _ _ k d)
  have h1 : (fun k : Fin 64 => (∑ cc : Fin 2, A3 m c (ix3 cc k (1 : Fin 3))) + ∑ cc : Fin 2, A3 m c (ix3 cc k (2 : Fin 3)))
      = ssq (X m c) (I m c) := funext fun k => by
    have e1 : ∑ cc : Fin 2, A3 m c (ix3 cc k (1 : Fin 3)) = ∑ cc : Fin 2, part3 (X m c) (I m c) cc k 1 :=
      Finset.sum_congr rfl fun cc _ => final3_apply m c cc k 1
    have e2 : ∑ cc : Fin 2, A3 m c (ix3 cc k (2 : Fin 3)) = ∑ cc : Fin 2, part3 (X m c) (I m c) cc k 2 :=
      Finset.sum_congr rfl fun cc _ => final3_apply m c cc k 2
    rw [e1, e2, sum_part3_1, sum_part3_2 _ _ k hfin, add_zero]
  rw [h0, h2, h1]

end Cert.KernelIdeal.Result

/-! ## The claims -/

namespace Cert.Proof.Claims

open Cert.Compact

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: widening back what was narrowed to half width is the identity on extended
    reals, and at the word level it is the rounding through half width. -/
theorem preserves : Cert.preserves_Kernel_KernelIdeal :=
  IdealRules.truncf_extf.statement _ .f32 .bf16

/-- Both programs end at the loss of the per-cluster count, feature sums and sum of squared norms of arguments that
    agree. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2.1, (h c).2.2⟩)
    (Cert.ReferenceIdeal.ValueP.run (F := Ideal) m' ρ')
  rw [Cert.ReferenceIdeal.ReadP.val_main_v21_eq, (hagree c).1, (hagree c).2]
  funext i
  rw [eq_ix0 i, Cert.ReferenceIdeal.RefValue.ref_result]
  have hfin : ∀ r d, ∃ y : ℝ, Cert.KernelIdeal.Blocks.X m c r d = y := fun r d =>
    Cert.Finite.real_of_pre _ _ (hpre c) (ix2 r d)
  exact (Cert.KernelIdeal.Result.result_eq m c hfin).symm

end Cert.Proof.Claims

end
-- ==== Proof.lean ====
/-
  `Cert.Claim` for the per-cluster compactness loss: a kernel that reduces by segments through a one-hot matrix
  product, tile by tile, against a reference that scatters.  The witnesses of the programs' stated side conditions are
  the generated instances; the five claims are assembled in Proof/Claims.lean, where the argument is told.
-/
import proofs.«414399_j7507602833894_3_alg».proof.Defs
import proofs.«414399_j7507602833894_3_alg».proof.Proof.Gen.Kernel
import proofs.«414399_j7507602833894_3_alg».proof.Proof.Gen.KernelIdeal
import proofs.«414399_j7507602833894_3_alg».proof.Proof.Gen.ReferenceIdeal
import proofs.«414399_j7507602833894_3_alg».proof.Proof.Gen.Pre_finite_inputs
import proofs.«414399_j7507602833894_3_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
